-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S1x1x64x64x1x1 : Shape := ⟨6, ![1, 1, 64, 64, 1, 1]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S1x1x64x64x1x1 : S_.BroadcastsInDim S1x1x64x64x1x1 (![] : Fin 0 → Fin S1x1x64x64x1x1.rank)
  reducesTo_S1x1x64x64x1x1_S_d0_1_2_3_4_5 : S1x1x64x64x1x1.ReducesTo [0, 1, 2, 3, 4, 5] S_

variable [Facts]

def fn {F : FTy → Type} [FloatOps F] (main_arg0 : FVec F S4x64x512x512 .f32) (main_arg1 : FVec F S1x1x64x64x1x1 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S1x1x64x64x1x1 .f32 := Host.absf main_arg1
  let main_cst_0 : FVec F S_ .f32 := constant S_ .f32 0x7F800000#32
  let main_v5 : FVec F S1x1x64x64x1x1 .f32 := broadcastInDim S1x1x64x64x1x1 ![] bcast_S_S1x1x64x64x1x1 main_cst_0
  let main_v6 : IVec S1x1x64x64x1x1 1 := cmpf .olt main_v4 main_v5
  let main_c_1 : IVec S_ 1 := constantI S_ 1 1#1
  let main_v7 : IVec S_ 1 := (fun x v => Host.reduce IntOp.andi x v reducesTo_S1x1x64x64x1x1_S_d0_1_2_3_4_5 h_S_) main_v6 main_c_1
  let main_v8 : IVec S_ 1 := andi main_v3 main_v7
  main_v8
-- ==== Kernel.lean ====
abbrev S4x64x512x512 : Shape := ⟨4, ![4, 64, 512, 512]⟩
abbrev S1x1x64x64x1x1 : Shape := ⟨6, ![1, 1, 64, 64, 1, 1]⟩
abbrev S64x64 : Shape := ⟨2, ![64, 64]⟩
abbrev S64 : Shape := ⟨1, ![64]⟩
abbrev S64x1x1 : Shape := ⟨3, ![64, 1, 1]⟩
abbrev S8 : Shape := ⟨1, ![8]⟩
abbrev S1x8x1 : Shape := ⟨3, ![1, 8, 1]⟩
abbrev S1x1x8 : Shape := ⟨3, ![1, 1, 8]⟩
abbrev S_ : Shape := ⟨0, ![]⟩
abbrev S64x8x1 : Shape := ⟨3, ![64, 8, 1]⟩
abbrev S64x8x8 : Shape := ⟨3, ![64, 8, 8]⟩
abbrev S64x64x1 : Shape := ⟨3, ![64, 64, 1]⟩
abbrev S1 : Shape := ⟨1, ![1]⟩
abbrev S1x1x1 : Shape := ⟨3, ![1, 1, 1]⟩
abbrev S64x8x8x64 : Shape := ⟨4, ![64, 8, 8, 64]⟩
abbrev S64x8x512 : Shape := ⟨3, ![64, 8, 512]⟩
abbrev S1x8x512x512 : Shape := ⟨4, ![1, 8, 512, 512]⟩
abbrev S8x8x512 : Shape := ⟨3, ![8, 8, 512]⟩
abbrev S1x1x64x512 : Shape := ⟨4, ![1, 1, 64, 512]⟩
abbrev S64x512 : Shape := ⟨2, ![64, 512]⟩
abbrev S1x1x512 : Shape := ⟨3, ![1, 1, 512]⟩
abbrev S512 : Shape := ⟨1, ![512]⟩
abbrev S1x512 : Shape := ⟨2, ![1, 512]⟩
abbrev S64x448 : Shape := ⟨2, ![64, 448]⟩
abbrev S64x384 : Shape := ⟨2, ![64, 384]⟩
abbrev S64x128 : Shape := ⟨2, ![64, 128]⟩
abbrev S64x320 : Shape := ⟨2, ![64, 320]⟩
abbrev S64x192 : Shape := ⟨2, ![64, 192]⟩
abbrev S64x256 : Shape := ⟨2, ![64, 256]⟩

abbrev nBuf : Space → Nat
  | .hbm => 67
  | .vmem => 6
  | .smem => 0
  | _ => 0

abbrev bufTy : (tb : Table) → Fin (tcTables nBuf tb) → BufTy
  | .hbm, ⟨0, _⟩ => ⟨S4x64x512x512, .f32⟩
  | .hbm, ⟨1, _⟩ => ⟨S1x1x64x64x1x1, .f32⟩
  | .hbm, ⟨2, _⟩ => ⟨S64x64, .f32⟩
  | .hbm, ⟨3, _⟩ => ⟨S64, .i32⟩
  | .hbm, ⟨4, _⟩ => ⟨S64x1x1, .i32⟩
  | .hbm, ⟨5, _⟩ => ⟨S8, .i32⟩
  | .hbm, ⟨6, _⟩ => ⟨S1x8x1, .i32⟩
  | .hbm, ⟨7, _⟩ => ⟨S8, .i32⟩
  | .hbm, ⟨8, _⟩ => ⟨S1x1x8, .i32⟩
  | .hbm, ⟨9, _⟩ => ⟨S_, .i32⟩
  | .hbm, ⟨10, _⟩ => ⟨S1x8x1, .i32⟩
  | .hbm, ⟨11, _⟩ => ⟨S1x8x1, .i32⟩
  | .hbm, ⟨12, _⟩ => ⟨S64x8x1, .i32⟩
  | .hbm, ⟨13, _⟩ => ⟨S64x8x1, .i32⟩
  | .hbm, ⟨14, _⟩ => ⟨S64x8x1, .i32⟩
  | .hbm, ⟨15, _⟩ => ⟨S64x8x8, .i32⟩
  | .hbm, ⟨16, _⟩ => ⟨S64x8x8, .i32⟩
  | .hbm, ⟨17, _⟩ => ⟨S64x8x8, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S64x8x8, .i32⟩
  | .hbm, ⟨25, _⟩ => ⟨S64x8x8, .i32⟩
  | .hbm, ⟨26, _⟩ => ⟨S_, .i32⟩
  | .hbm, ⟨27, _⟩ => ⟨S64x8x8, .i32⟩
  | .hbm, ⟨28, _⟩ => ⟨S64x8x8, .i1⟩
  | .hbm, ⟨29, _⟩ => ⟨S_, .i32⟩
  | .hbm, ⟨30, _⟩ => ⟨S64x8x8, .i32⟩
  | .hbm, ⟨31, _⟩ => ⟨S64x8x8, .i1⟩
  | .hbm, ⟨32, _⟩ => ⟨S_, .i32⟩
  | .hbm, ⟨33, _⟩ => ⟨S_, .i1⟩
  | .hbm, ⟨34, _⟩ => ⟨S64x8x8, .i1⟩
  | .hbm, ⟨35, _⟩ => ⟨S64x8x8, .i1⟩
  | .hbm, ⟨36, _⟩ => ⟨S64x8x8, .i1⟩
  | .hbm, ⟨37, _⟩ => ⟨S64x8x8, .i32⟩
  | .hbm, ⟨38, _⟩ => ⟨S64x8x8, .i32⟩
  | .hbm, ⟨39, _⟩ => ⟨S64x8x8, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i1⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i32⟩
  | .hbm, ⟨48, _⟩ => ⟨S64x64x1, .i32⟩
  | .hbm, ⟨49, _⟩ => ⟨S1, .i32⟩
  | .hbm, ⟨50, _⟩ => ⟨S_, .i32⟩
  | .hbm, ⟨51, _⟩ => ⟨S64x64x1, .i32⟩
  | .hbm, ⟨52, _⟩ => ⟨S64x64x1, .i1⟩
  | .hbm, ⟨53, _⟩ => ⟨S1x1x1, .i32⟩
  | .hbm, ⟨54, _⟩ => ⟨S64x64x1, .i32⟩
  | .hbm, ⟨55, _⟩ => ⟨S64x64x1, .i1⟩
  | .hbm, ⟨56, _⟩ => ⟨S64x64x1, .i1⟩
  | .hbm, ⟨57, _⟩ => ⟨S_, .i1⟩
  | .hbm, ⟨58, _⟩ => ⟨S64x64, .i1⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S64x8x8, .f32⟩
  | .hbm, ⟨64, _⟩ => ⟨S64x8x8x64, .f32⟩
  | .hbm, ⟨65, _⟩ => ⟨S64x8x512, .f32⟩
  | .hbm, ⟨66, _⟩ => ⟨S4x64x512x512, .f32⟩
  | .local _ .vmem, ⟨0, _⟩ => ⟨S1x8x512x512, .f32⟩
  | .local _ .vmem, ⟨1, _⟩ => ⟨S1x8x512x512, .f32⟩
  | .local _ .vmem, ⟨2, _⟩ => ⟨S8x8x512, .f32⟩
  | .local _ .vmem, ⟨3, _⟩ => ⟨S8x8x512, .f32⟩
  | .local _ .vmem, ⟨4, _⟩ => ⟨S1x8x512x512, .f32⟩
  | .local _ .vmem, ⟨5, _⟩ => ⟨S1x8x512x512, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v15 : Ref sig .tc := ⟨.hbm, 39, rfl⟩
abbrev main_v16 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c0_i32 : BitVec 32 := 0#32
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  v11
def k0_mult2 (i : grid0.Coords) : BitVec 32 :=
  let arg1 : BitVec 32 := BitVec.ofNat 32 (i 1).val
  let c1_i32_4 : BitVec 32 := 1#32
  let v13 : BitVec 32 := Scalar.addi arg1 c1_i32_4
  let c8_i32_5 : BitVec 32 := 8#32
  let c0_i32_6 : BitVec 32 := 0#32
  let v14 : BitVec 1 := Scalar.cmpi .eq c8_i32_5 c0_i32_6
  let c1_i32_7 : BitVec 32 := 1#32
  let v15 : BitVec 32 := Scalar.select v14 c1_i32_7 c8_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c64_i32_11 : BitVec 32 := 64#32
  let v24 : BitVec 32 := Scalar.muli v23 c64_i32_11
  v24
def k0_mult3 (i : grid0.Coords) : BitVec 32 :=
  let arg1 : BitVec 32 := BitVec.ofNat 32 (i 1).val
  let c2_i32 : BitVec 32 := 2#32
  let v26 : BitVec 32 := Scalar.addi arg1 c2_i32
  let c8_i32_12 : BitVec 32 := 8#32
  let c0_i32_13 : BitVec 32 := 0#32
  let v27 : BitVec 1 := Scalar.cmpi .eq c8_i32_12 c0_i32_13
  let c1_i32_14 : BitVec 32 := 1#32
  let v28 : BitVec 32 := Scalar.select v27 c1_i32_14 c8_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c64_i32_18 : BitVec 32 := 64#32
  let v37 : BitVec 32 := Scalar.muli v36 c64_i32_18
  v37
def k0_mult4 (i : grid0.Coords) : BitVec 32 :=
  let arg1 : BitVec 32 := BitVec.ofNat 32 (i 1).val
  let c3_i32 : BitVec 32 := 3#32
  let v39 : BitVec 32 := Scalar.addi arg1 c3_i32
  let c8_i32_19 : BitVec 32 := 8#32
  let c0_i32_20 : BitVec 32 := 0#32
  let v40 : BitVec 1 := Scalar.cmpi .eq c8_i32_19 c0_i32_20
  let c1_i32_21 : BitVec 32 := 1#32
  let v41 : BitVec 32 := Scalar.select v40 c1_i32_21 c8_i32_19
  let v42 : BitVec 32 := Scalar.remsi v39 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let c64_i32_25 : BitVec 32 := 64#32
  let v50 : BitVec 32 := Scalar.muli v49 c64_i32_25
  v50
def k0_mult5 (i : grid0.Coords) : BitVec 32 :=
  let arg1 : BitVec 32 := BitVec.ofNat 32 (i 1).val
  let c4_i32 : BitVec 32 := 4#32
  let v52 : BitVec 32 := Scalar.addi arg1 c4_i32
  let c8_i32_26 : BitVec 32 := 8#32
  let c0_i32_27 : BitVec 32 := 0#32
  let v53 : BitVec 1 := Scalar.cmpi .eq c8_i32_26 c0_i32_27
  let c1_i32_28 : BitVec 32 := 1#32
  let v54 : BitVec 32 := Scalar.select v53 c1_i32_28 c8_i32_26
  let v55 : BitVec 32 := Scalar.remsi v52 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c64_i32_32 : BitVec 32 := 64#32
  let v63 : BitVec 32 := Scalar.muli v62 c64_i32_32
  v63
def k0_mult6 (i : grid0.Coords) : BitVec 32 :=
  let arg1 : BitVec 32 := BitVec.ofNat 32 (i 1).val
  let c5_i32 : BitVec 32 := 5#32
  let v65 : BitVec 32 := Scalar.addi arg1 c5_i32
  let c8_i32_33 : BitVec 32 := 8#32
  let c0_i32_34 : BitVec 32 := 0#32
  let v66 : BitVec 1 := Scalar.cmpi .eq c8_i32_33 c0_i32_34
  let c1_i32_35 : BitVec 32 := 1#32
  let v67 : BitVec 32 := Scalar.select v66 c1_i32_35 c8_i32_33
  let v68 : BitVec 32 := Scalar.remsi v65 v67
  let c0_i32_37 : BitVec 32 := 0#32
  let v70 : BitVec 1 := Scalar.cmpi .slt v68 c0_i32_37
  let c0_i32_38 : BitVec 32 := 0#32
  let v71 : BitVec 1 := Scalar.cmpi .slt v67 c0_i32_38
  let v72 : BitVec 1 := Scalar.xori v70 v71
  let c0_i32_36 : BitVec 32 := 0#32
  let v69 : BitVec 1 := Scalar.cmpi .ne v68 c0_i32_36
  let v73 : BitVec 1 := Scalar.andi v72 v69
  let v74 : BitVec 32 := Scalar.addi v68 v67
  let v75 : BitVec 32 := Scalar.select v73 v74 v68
  let c64_i32_39 : BitVec 32 := 64#32
  let v76 : BitVec 32 := Scalar.muli v75 c64_i32_39
  v76
def k0_mult7 (i : grid0.Coords) : BitVec 32 :=
  let arg1 : BitVec 32 := BitVec.ofNat 32 (i 1).val
  let c6_i32 : BitVec 32 := 6#32
  let v78 : BitVec 32 := Scalar.addi arg1 c6_i32
  let c8_i32_40 : BitVec 32 := 8#32
  let c0_i32_41 : BitVec 32 := 0#32
  let v79 : BitVec 1 := Scalar.cmpi .eq c8_i32_40 c0_i32_41
  let c1_i32_42 : BitVec 32 := 1#32
  let v80 : BitVec 32 := Scalar.select v79 c1_i32_42 c8_i32_40
  let v81 : BitVec 32 := Scalar.remsi v78 v80
  let c0_i32_44 : BitVec 32 := 0#32
  let v83 : BitVec 1 := Scalar.cmpi .slt v81 c0_i32_44
  let c0_i32_45 : BitVec 32 := 0#32
  let v84 : BitVec 1 := Scalar.cmpi .slt v80 c0_i32_45
  let v85 : BitVec 1 := Scalar.xori v83 v84
  let c0_i32_43 : BitVec 32 := 0#32
  let v82 : BitVec 1 := Scalar.cmpi .ne v81 c0_i32_43
  let v86 : BitVec 1 := Scalar.andi v85 v82
  let v87 : BitVec 32 := Scalar.addi v81 v80
  let v88 : BitVec 32 := Scalar.select v86 v87 v81
  let c64_i32_46 : BitVec 32 := 64#32
  let v89 : BitVec 32 := Scalar.muli v88 c64_i32_46
  v89
def k0_mult8 (i : grid0.Coords) : BitVec 32 :=
  let arg1 : BitVec 32 := BitVec.ofNat 32 (i 1).val
  let c7_i32 : BitVec 32 := 7#32
  let v91 : BitVec 32 := Scalar.addi arg1 c7_i32
  let c8_i32_47 : BitVec 32 := 8#32
  let c0_i32_48 : BitVec 32 := 0#32
  let v92 : BitVec 1 := Scalar.cmpi .eq c8_i32_47 c0_i32_48
  let c1_i32_49 : BitVec 32 := 1#32
  let v93 : BitVec 32 := Scalar.select v92 c1_i32_49 c8_i32_47
  let v94 : BitVec 32 := Scalar.remsi v91 v93
  let c0_i32_51 : BitVec 32 := 0#32
  let v96 : BitVec 1 := Scalar.cmpi .slt v94 c0_i32_51
  let c0_i32_52 : BitVec 32 := 0#32
  let v97 : BitVec 1 := Scalar.cmpi .slt v93 c0_i32_52
  let v98 : BitVec 1 := Scalar.xori v96 v97
  let c0_i32_50 : BitVec 32 := 0#32
  let v95 : BitVec 1 := Scalar.cmpi .ne v94 c0_i32_50
  let v99 : BitVec 1 := Scalar.andi v98 v95
  let v100 : BitVec 32 := Scalar.addi v94 v93
  let v101 : BitVec 32 := Scalar.select v99 v100 v94
  let c64_i32_53 : BitVec 32 := 64#32
  let v102 : BitVec 32 := Scalar.muli v101 c64_i32_53
  v102
def k0_mult9 (i : grid0.Coords) : BitVec 32 :=
  let arg1 : BitVec 32 := BitVec.ofNat 32 (i 1).val
  let c8_i32_54 : BitVec 32 := 8#32
  let v104 : BitVec 32 := Scalar.addi arg1 c8_i32_54
  let c8_i32_55 : BitVec 32 := 8#32
  let c0_i32_56 : BitVec 32 := 0#32
  let v105 : BitVec 1 := Scalar.cmpi .eq c8_i32_55 c0_i32_56
  let c1_i32_57 : BitVec 32 := 1#32
  let v106 : BitVec 32 := Scalar.select v105 c1_i32_57 c8_i32_55
  let v107 : BitVec 32 := Scalar.remsi v104 v106
  let c0_i32_59 : BitVec 32 := 0#32
  let v109 : BitVec 1 := Scalar.cmpi .slt v107 c0_i32_59
  let c0_i32_60 : BitVec 32 := 0#32
  let v110 : BitVec 1 := Scalar.cmpi .slt v106 c0_i32_60
  let v111 : BitVec 1 := Scalar.xori v109 v110
  let c0_i32_58 : BitVec 32 := 0#32
  let v108 : BitVec 1 := Scalar.cmpi .ne v107 c0_i32_58
  let v112 : BitVec 1 := Scalar.andi v111 v108
  let v113 : BitVec 32 := Scalar.addi v107 v106
  let v114 : BitVec 32 := Scalar.select v112 v113 v107
  let c64_i32_61 : BitVec 32 := 64#32
  let v115 : BitVec 32 := Scalar.muli v114 c64_i32_61
  v115
def k0_off1 (i : grid0.Coords) (c0_i32 : BitVec 32) : Fin 4 → Nat :=
  let c0 : Index := 0#32
  let c0_62 : Index := 0#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v117 : Index := Scalar.indexCast v12
  let c0_63 : Index := 0#32
  ![0, 0, v117.toNat, 0]
def k0_off2 (i : grid0.Coords) (c0_i32 : BitVec 32) : Fin 4 → Nat :=
  let c0_127 : Index := 0#32
  let c1_128 : Index := 1#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v205 : Index := Scalar.indexCast v12
  let c0_129 : Index := 0#32
  ![0, 1, v205.toNat, 0]
def k0_off3 (i : grid0.Coords) (c0_i32 : BitVec 32) : Fin 4 → Nat :=
  let c0_210 : Index := 0#32
  let c2_211 : Index := 2#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v320 : Index := Scalar.indexCast v12
  let c0_212 : Index := 0#32
  ![0, 2, v320.toNat, 0]
def k0_off4 (i : grid0.Coords) (c0_i32 : BitVec 32) : Fin 4 → Nat :=
  let c0_293 : Index := 0#32
  let c3_294 : Index := 3#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v435 : Index := Scalar.indexCast v12
  let c0_295 : Index := 0#32
  ![0, 3, v435.toNat, 0]
def k0_off5 (i : grid0.Coords) (c0_i32 : BitVec 32) : Fin 4 → Nat :=
  let c0_376 : Index := 0#32
  let c4_377 : Index := 4#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v550 : Index := Scalar.indexCast v12
  let c0_378 : Index := 0#32
  ![0, 4, v550.toNat, 0]
def k0_off6 (i : grid0.Coords) (c0_i32 : BitVec 32) : Fin 4 → Nat :=
  let c0_459 : Index := 0#32
  let c5_460 : Index := 5#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v665 : Index := Scalar.indexCast v12
  let c0_461 : Index := 0#32
  ![0, 5, v665.toNat, 0]
def k0_off7 (i : grid0.Coords) (c0_i32 : BitVec 32) : Fin 4 → Nat :=
  let c0_542 : Index := 0#32
  let c6_543 : Index := 6#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v780 : Index := Scalar.indexCast v12
  let c0_544 : Index := 0#32
  ![0, 6, v780.toNat, 0]
def k0_off8 (i : grid0.Coords) (c0_i32 : BitVec 32) : Fin 4 → Nat :=
  let c0_625 : Index := 0#32
  let c7_626 : Index := 7#32
  let arg1 : BitVec 32 := BitVec.ofNat 32 (i 1).val
  let v0 : BitVec 32 := Scalar.addi arg1 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c64_i32 : BitVec 32 := 64#32
  let v11 : BitVec 32 := Scalar.muli v10 c64_i32
  let v12 : BitVec 32 := v11
  let v895 : Index := Scalar.indexCast v12
  let c0_627 : Index := 0#32
  ![0, 7, v895.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x1x64x64x1x1_S64x64 : S1x1x64x64x1x1.ShapeCasts S64x64
  bcast_S64_S64x1x1_0 : S64.BroadcastsInDim S64x1x1 (![0] : Fin 1 → Fin S64x1x1.rank)
  bcast_S8_S1x8x1_1 : S8.BroadcastsInDim S1x8x1 (![1] : Fin 1 → Fin S1x8x1.rank)
  bcast_S8_S1x1x8_2 : S8.BroadcastsInDim S1x1x8 (![2] : Fin 1 → Fin S1x1x8.rank)
  bcast_S_S1x8x1 : S_.BroadcastsInDim S1x8x1 (![] : Fin 0 → Fin S1x8x1.rank)
  bcast_S64x1x1_S64x8x1_0_1_2 : S64x1x1.BroadcastsInDim S64x8x1 (![0, 1, 2] : Fin 3 → Fin S64x8x1.rank)
  bcast_S1x8x1_S64x8x1_0_1_2 : S1x8x1.BroadcastsInDim S64x8x1 (![0, 1, 2] : Fin 3 → Fin S64x8x1.rank)
  bcast_S64x8x1_S64x8x8_0_1_2 : S64x8x1.BroadcastsInDim S64x8x8 (![0, 1, 2] : Fin 3 → Fin S64x8x8.rank)
  bcast_S1x1x8_S64x8x8_0_1_2 : S1x1x8.BroadcastsInDim S64x8x8 (![0, 1, 2] : Fin 3 → Fin S64x8x8.rank)
  bcast_S_S64x8x8 : S_.BroadcastsInDim S64x8x8 (![] : Fin 0 → Fin S64x8x8.rank)
  shapeCasts_S64x8x8_S64x64 : S64x8x8.ShapeCasts S64x64
  bcast_S_S64x64 : S_.BroadcastsInDim S64x64 (![] : Fin 0 → Fin S64x64.rank)
  shapeCasts_S64x64_S64x64x1 : S64x64.ShapeCasts S64x64x1
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  h_S_ : 0 < S_.numel
  shapeCasts_S64x64_S64x8x8 : S64x64.ShapeCasts S64x8x8
  bcast_S64x8x8_S64x8x8x64_0_1_2 : S64x8x8.BroadcastsInDim S64x8x8x64 (![0, 1, 2] : Fin 3 → Fin S64x8x8x64.rank)
  shapeCasts_S64x8x8x64_S64x8x512 : S64x8x8x64.ShapeCasts S64x8x512
  h_S1x1x64x512 : 0 < S1x1x64x512.numel
  shapeCasts_S1x1x64x512_S64x512 : S1x1x64x512.ShapeCasts S64x512
  inb_S8x8x512_S1x1x512_0_0_0 : ∀ a, (![0, 0, 0] : Fin 3 → Nat) a + S1x1x512.size a ≤ S8x8x512.size a
  h_S1x1x512 : 0 < S1x1x512.numel
  shapeCasts_S1x1x512_S512 : S1x1x512.ShapeCasts S512
  shapeCasts_S512_S1x512 : S512.ShapeCasts S1x512
  broadcasts_S1x512_S64x512 : S1x512.Broadcasts S64x512
  inb_S1x8x512x512_S1x1x64x512_0_0_0_0 : ∀ a, (![0, 0, 0, 0] : Fin 4 → Nat) a + S1x1x64x512.size a ≤ S1x8x512x512.size a
  shapeCasts_S64x512_S1x1x64x512 : S64x512.ShapeCasts S1x1x64x512
  inb_S8x8x512_S1x1x512_0_1_0 : ∀ a, (![0, 1, 0] : Fin 3 → Nat) a + S1x1x512.size a ≤ S8x8x512.size a
  inb_S1x8x512x512_S1x1x64x512_0_0_64_0 : ∀ a, (![0, 0, 64, 0] : Fin 4 → Nat) a + S1x1x64x512.size a ≤ S1x8x512x512.size a
  inb_S8x8x512_S1x1x512_0_2_0 : ∀ a, (![0, 2, 0] : Fin 3 → Nat) a + S1x1x512.size a ≤ S8x8x512.size a
  inb_S1x8x512x512_S1x1x64x512_0_0_128_0 : ∀ a, (![0, 0, 128, 0] : Fin 4 → Nat) a + S1x1x64x512.size a ≤ S1x8x512x512.size a
  inb_S8x8x512_S1x1x512_0_3_0 : ∀ a, (![0, 3, 0] : Fin 3 → Nat) a + S1x1x512.size a ≤ S8x8x512.size a
  inb_S1x8x512x512_S1x1x64x512_0_0_192_0 : ∀ a, (![0, 0, 192, 0] : Fin 4 → Nat) a + S1x1x64x512.size a ≤ S1x8x512x512.size a
  inb_S8x8x512_S1x1x512_0_4_0 : ∀ a, (![0, 4, 0] : Fin 3 → Nat) a + S1x1x512.size a ≤ S8x8x512.size a
  inb_S1x8x512x512_S1x1x64x512_0_0_256_0 : ∀ a, (![0, 0, 256, 0] : Fin 4 → Nat) a + S1x1x64x512.size a ≤ S1x8x512x512.size a
  inb_S8x8x512_S1x1x512_0_5_0 : ∀ a, (![0, 5, 0] : Fin 3 → Nat) a + S1x1x512.size a ≤ S8x8x512.size a
  inb_S1x8x512x512_S1x1x64x512_0_0_320_0 : ∀ a, (![0, 0, 320, 0] : Fin 4 → Nat) a + S1x1x64x512.size a ≤ S1x8x512x512.size a
  inb_S8x8x512_S1x1x512_0_6_0 : ∀ a, (![0, 6, 0] : Fin 3 → Nat) a + S1x1x512.size a ≤ S8x8x512.size a
  inb_S1x8x512x512_S1x1x64x512_0_0_384_0 : ∀ a, (![0, 0, 384, 0] : Fin 4 → Nat) a + S1x1x64x512.size a ≤ S1x8x512x512.size a
  inb_S8x8x512_S1x1x512_0_7_0 : ∀ a, (![0, 7, 0] : Fin 3 → Nat) a + S1x1x512.size a ≤ S8x8x512.size a
  inb_S1x8x512x512_S1x1x64x512_0_0_448_0 : ∀ a, (![0, 0, 448, 0] : Fin 4 → Nat) a + S1x1x64x512.size a ≤ S1x8x512x512.size a
  slices_S64x512_o0_64_S64x448 : S64x512.Slices ![0, 64] S64x448
  slices_S64x512_o0_0_S64x64 : S64x512.Slices ![0, 0] S64x64
  concatenates_S64x448_S64x64_S64x512_d1 : Shape.Concatenates [S64x448, S64x64] S64x512 1
  inb_S8x8x512_S1x1x512_1_0_0 : ∀ a, (![1, 0, 0] : Fin 3 → Nat) a + S1x1x512.size a ≤ S8x8x512.size a
  inb_S1x8x512x512_S1x1x64x512_0_1_0_0 : ∀ a, (![0, 1, 0, 0] : Fin 4 → Nat) a + S1x1x64x512.size a ≤ S1x8x512x512.size a
  inb_S8x8x512_S1x1x512_1_1_0 : ∀ a, (![1, 1, 0] : Fin 3 → Nat) a + S1x1x512.size a ≤ S8x8x512.size a
  inb_S1x8x512x512_S1x1x64x512_0_1_64_0 : ∀ a, (![0, 1, 64, 0] : Fin 4 → Nat) a + S1x1x64x512.size a ≤ S1x8x512x512.size a
  inb_S8x8x512_S1x1x512_1_2_0 : ∀ a, (![1, 2, 0] : Fin 3 → Nat) a + S1x1x512.size a ≤ S8x8x512.size a
  inb_S1x8x512x512_S1x1x64x512_0_1_128_0 : ∀ a, (![0, 1, 128, 0] : Fin 4 → Nat) a + S1x1x64x512.size a ≤ S1x8x512x512.size a
  inb_S8x8x512_S1x1x512_1_3_0 : ∀ a, (![1, 3, 0] : Fin 3 → Nat) a + S1x1x512.size a ≤ S8x8x512.size a
  inb_S1x8x512x512_S1x1x64x512_0_1_192_0 : ∀ a, (![0, 1, 192, 0] : Fin 4 → Nat) a + S1x1x64x512.size a ≤ S1x8x512x512.size a
  inb_S8x8x512_S1x1x512_1_4_0 : ∀ a, (![1, 4, 0] : Fin 3 → Nat) a + S1x1x512.size a ≤ S8x8x512.size a
  inb_S1x8x512x512_S1x1x64x512_0_1_256_0 : ∀ a, (![0, 1, 256, 0] : Fin 4 → Nat) a + S1x1x64x512.size a ≤ S1x8x512x512.size a
  inb_S8x8x512_S1x1x512_1_5_0 : ∀ a, (![1, 5, 0] : Fin 3 → Nat) a + S1x1x512.size a ≤ S8x8x512.size a
  inb_S1x8x512x512_S1x1x64x512_0_1_320_0 : ∀ a, (![0, 1, 320, 0] : Fin 4 → Nat) a + S1x1x64x512.size a ≤ S1x8x512x512.size a
  inb_S8x8x512_S1x1x512_1_6_0 : ∀ a, (![1, 6, 0] : Fin 3 → Nat) a + S1x1x512.size a ≤ S8x8x512.size a
  inb_S1x8x512x512_S1x1x64x512_0_1_384_0 : ∀ a, (![0, 1, 384, 0] : Fin 4 → Nat) a + S1x1x64x512.size a ≤ S1x8x512x512.size a
  inb_S8x8x512_S1x1x512_1_7_0 : ∀ a, (![1, 7, 0] : Fin 3 → Nat) a + S1x1x512.size a ≤ S8x8x512.size a
  inb_S1x8x512x512_S1x1x64x512_0_1_448_0 : ∀ a, (![0, 1, 448, 0] : Fin 4 → Nat) a + S1x1x64x512.size a ≤ S1x8x512x512.size a
  slices_S64x512_o0_128_S64x384 : S64x512.Slices ![0, 128] S64x384
  slices_S64x512_o0_0_S64x128 : S64x512.Slices ![0, 0] S64x128
  concatenates_S64x384_S64x128_S64x512_d1 : Shape.Concatenates [S64x384, S64x128] S64x512 1
  inb_S8x8x512_S1x1x512_2_0_0 : ∀ a, (![2, 0, 0] : Fin 3 → Nat) a + S1x1x512.size a ≤ S8x8x512.size a
  inb_S1x8x512x512_S1x1x64x512_0_2_0_0 : ∀ a, (![0, 2, 0, 0] : Fin 4 → Nat) a + S1x1x64x512.size a ≤ S1x8x512x512.size a
  inb_S8x8x512_S1x1x512_2_1_0 : ∀ a, (![2, 1, 0] : Fin 3 → Nat) a + S1x1x512.size a ≤ S8x8x512.size a
  inb_S1x8x512x512_S1x1x64x512_0_2_64_0 : ∀ a, (![0, 2, 64, 0] : Fin 4 → Nat) a + S1x1x64x512.size a ≤ S1x8x512x512.size a
  inb_S8x8x512_S1x1x512_2_2_0 : ∀ a, (![2, 2, 0] : Fin 3 → Nat) a + S1x1x512.size a ≤ S8x8x512.size a
  inb_S1x8x512x512_S1x1x64x512_0_2_128_0 : ∀ a, (![0, 2, 128, 0] : Fin 4 → Nat) a + S1x1x64x512.size a ≤ S1x8x512x512.size a
  inb_S8x8x512_S1x1x512_2_3_0 : ∀ a, (![2, 3, 0] : Fin 3 → Nat) a + S1x1x512.size a ≤ S8x8x512.size a
  inb_S1x8x512x512_S1x1x64x512_0_2_192_0 : ∀ a, (![0, 2, 192, 0] : Fin 4 → Nat) a + S1x1x64x512.size a ≤ S1x8x512x512.size a
  inb_S8x8x512_S1x1x512_2_4_0 : ∀ a, (![2, 4, 0] : Fin 3 → Nat) a + S1x1x512.size a ≤ S8x8x512.size a
  inb_S1x8x512x512_S1x1x64x512_0_2_256_0 : ∀ a, (![0, 2, 256, 0] : Fin 4 → Nat) a + S1x1x64x512.size a ≤ S1x8x512x512.size a
  inb_S8x8x512_S1x1x512_2_5_0 : ∀ a, (![2, 5, 0] : Fin 3 → Nat) a + S1x1x512.size a ≤ S8x8x512.size a
  inb_S1x8x512x512_S1x1x64x512_0_2_320_0 : ∀ a, (![0, 2, 320, 0] : Fin 4 → Nat) a + S1x1x64x512.size a ≤ S1x8x512x512.size a
  inb_S8x8x512_S1x1x512_2_6_0 : ∀ a, (![2, 6, 0] : Fin 3 → Nat) a + S1x1x512.size a ≤ S8x8x512.size a
  inb_S1x8x512x512_S1x1x64x512_0_2_384_0 : ∀ a, (![0, 2, 384, 0] : Fin 4 → Nat) a + S1x1x64x512.size a ≤ S1x8x512x512.size a
  inb_S8x8x512_S1x1x512_2_7_0 : ∀ a, (![2, 7, 0] : Fin 3 → Nat) a + S1x1x512.size a ≤ S8x8x512.size a
  inb_S1x8x512x512_S1x1x64x512_0_2_448_0 : ∀ a, (![0, 2, 448, 0] : Fin 4 → Nat) a + S1x1x64x512.size a ≤ S1x8x512x512.size a
  slices_S64x512_o0_192_S64x320 : S64x512.Slices ![0, 192] S64x320
  slices_S64x512_o0_0_S64x192 : S64x512.Slices ![0, 0] S64x192
  concatenates_S64x320_S64x192_S64x512_d1 : Shape.Concatenates [S64x320, S64x192] S64x512 1
  inb_S8x8x512_S1x1x512_3_0_0 : ∀ a, (![3, 0, 0] : Fin 3 → Nat) a + S1x1x512.size a ≤ S8x8x512.size a
  inb_S1x8x512x512_S1x1x64x512_0_3_0_0 : ∀ a, (![0, 3, 0, 0] : Fin 4 → Nat) a + S1x1x64x512.size a ≤ S1x8x512x512.size a
  inb_S8x8x512_S1x1x512_3_1_0 : ∀ a, (![3, 1, 0] : Fin 3 → Nat) a + S1x1x512.size a ≤ S8x8x512.size a
  inb_S1x8x512x512_S1x1x64x512_0_3_64_0 : ∀ a, (![0, 3, 64, 0] : Fin 4 → Nat) a + S1x1x64x512.size a ≤ S1x8x512x512.size a
  inb_S8x8x512_S1x1x512_3_2_0 : ∀ a, (![3, 2, 0] : Fin 3 → Nat) a + S1x1x512.size a ≤ S8x8x512.size a
  inb_S1x8x512x512_S1x1x64x512_0_3_128_0 : ∀ a, (![0, 3, 128, 0] : Fin 4 → Nat) a + S1x1x64x512.size a ≤ S1x8x512x512.size a
  inb_S8x8x512_S1x1x512_3_3_0 : ∀ a, (![3, 3, 0] : Fin 3 → Nat) a + S1x1x512.size a ≤ S8x8x512.size a
  inb_S1x8x512x512_S1x1x64x512_0_3_192_0 : ∀ a, (![0, 3, 192, 0] : Fin 4 → Nat) a + S1x1x64x512.size a ≤ S1x8x512x512.size a
  inb_S8x8x512_S1x1x512_3_4_0 : ∀ a, (![3, 4, 0] : Fin 3 → Nat) a + S1x1x512.size a ≤ S8x8x512.size a
  inb_S1x8x512x512_S1x1x64x512_0_3_256_0 : ∀ a, (![0, 3, 256, 0] : Fin 4 → Nat) a + S1x1x64x512.size a ≤ S1x8x512x512.size a
  inb_S8x8x512_S1x1x512_3_5_0 : ∀ a, (![3, 5, 0] : Fin 3 → Nat) a + S1x1x512.size a ≤ S8x8x512.size a
  inb_S1x8x512x512_S1x1x64x512_0_3_320_0 : ∀ a, (![0, 3, 320, 0] : Fin 4 → Nat) a + S1x1x64x512.size a ≤ S1x8x512x512.size a
  inb_S8x8x512_S1x1x512_3_6_0 : ∀ a, (![3, 6, 0] : Fin 3 → Nat) a + S1x1x512.size a ≤ S8x8x512.size a
  inb_S1x8x512x512_S1x1x64x512_0_3_384_0 : ∀ a, (![0, 3, 384, 0] : Fin 4 → Nat) a + S1x1x64x512.size a ≤ S1x8x512x512.size a
  inb_S8x8x512_S1x1x512_3_7_0 : ∀ a, (![3, 7, 0] : Fin 3 → Nat) a + S1x1x512.size a ≤ S8x8x512.size a
  inb_S1x8x512x512_S1x1x64x512_0_3_448_0 : ∀ a, (![0, 3, 448, 0] : Fin 4 → Nat) a + S1x1x64x512.size a ≤ S1x8x512x512.size a
  slices_S64x512_o0_256_S64x256 : S64x512.Slices ![0, 256] S64x256
  slices_S64x512_o0_0_S64x256 : S64x512.Slices ![0, 0] S64x256
  concatenates_S64x256_S64x256_S64x512_d1 : Shape.Concatenates [S64x256, S64x256] S64x512 1
  inb_S8x8x512_S1x1x512_4_0_0 : ∀ a, (![4, 0, 0] : Fin 3 → Nat) a + S1x1x512.size a ≤ S8x8x512.size a
  inb_S1x8x512x512_S1x1x64x512_0_4_0_0 : ∀ a, (![0, 4, 0, 0] : Fin 4 → Nat) a + S1x1x64x512.size a ≤ S1x8x512x512.size a
  inb_S8x8x512_S1x1x512_4_1_0 : ∀ a, (![4, 1, 0] : Fin 3 → Nat) a + S1x1x512.size a ≤ S8x8x512.size a
  inb_S1x8x512x512_S1x1x64x512_0_4_64_0 : ∀ a, (![0, 4, 64, 0] : Fin 4 → Nat) a + S1x1x64x512.size a ≤ S1x8x512x512.size a
  inb_S8x8x512_S1x1x512_4_2_0 : ∀ a, (![4, 2, 0] : Fin 3 → Nat) a + S1x1x512.size a ≤ S8x8x512.size a
  inb_S1x8x512x512_S1x1x64x512_0_4_128_0 : ∀ a, (![0, 4, 128, 0] : Fin 4 → Nat) a + S1x1x64x512.size a ≤ S1x8x512x512.size a
  inb_S8x8x512_S1x1x512_4_3_0 : ∀ a, (![4, 3, 0] : Fin 3 → Nat) a + S1x1x512.size a ≤ S8x8x512.size a
  inb_S1x8x512x512_S1x1x64x512_0_4_192_0 : ∀ a, (![0, 4, 192, 0] : Fin 4 → Nat) a + S1x1x64x512.size a ≤ S1x8x512x512.size a
  inb_S8x8x512_S1x1x512_4_4_0 : ∀ a, (![4, 4, 0] : Fin 3 → Nat) a + S1x1x512.size a ≤ S8x8x512.size a
  inb_S1x8x512x512_S1x1x64x512_0_4_256_0 : ∀ a, (![0, 4, 256, 0] : Fin 4 → Nat) a + S1x1x64x512.size a ≤ S1x8x512x512.size a
  inb_S8x8x512_S1x1x512_4_5_0 : ∀ a, (![4, 5, 0] : Fin 3 → Nat) a + S1x1x512.size a ≤ S8x8x512.size a
  inb_S1x8x512x512_S1x1x64x512_0_4_320_0 : ∀ a, (![0, 4, 320, 0] : Fin 4 → Nat) a + S1x1x64x512.size a ≤ S1x8x512x512.size a
  inb_S8x8x512_S1x1x512_4_6_0 : ∀ a, (![4, 6, 0] : Fin 3 → Nat) a + S1x1x512.size a ≤ S8x8x512.size a
  inb_S1x8x512x512_S1x1x64x512_0_4_384_0 : ∀ a, (![0, 4, 384, 0] : Fin 4 → Nat) a + S1x1x64x512.size a ≤ S1x8x512x512.size a
  inb_S8x8x512_S1x1x512_4_7_0 : ∀ a, (![4, 7, 0] : Fin 3 → Nat) a + S1x1x512.size a ≤ S8x8x512.size a
  inb_S1x8x512x512_S1x1x64x512_0_4_448_0 : ∀ a, (![0, 4, 448, 0] : Fin 4 → Nat) a + S1x1x64x512.size a ≤ S1x8x512x512.size a
  slices_S64x512_o0_320_S64x192 : S64x512.Slices ![0, 320] S64x192
  slices_S64x512_o0_0_S64x320 : S64x512.Slices ![0, 0] S64x320
  concatenates_S64x192_S64x320_S64x512_d1 : Shape.Concatenates [S64x192, S64x320] S64x512 1
  inb_S8x8x512_S1x1x512_5_0_0 : ∀ a, (![5, 0, 0] : Fin 3 → Nat) a + S1x1x512.size a ≤ S8x8x512.size a
  inb_S1x8x512x512_S1x1x64x512_0_5_0_0 : ∀ a, (![0, 5, 0, 0] : Fin 4 → Nat) a + S1x1x64x512.size a ≤ S1x8x512x512.size a
  inb_S8x8x512_S1x1x512_5_1_0 : ∀ a, (![5, 1, 0] : Fin 3 → Nat) a + S1x1x512.size a ≤ S8x8x512.size a
  inb_S1x8x512x512_S1x1x64x512_0_5_64_0 : ∀ a, (![0, 5, 64, 0] : Fin 4 → Nat) a + S1x1x64x512.size a ≤ S1x8x512x512.size a
  inb_S8x8x512_S1x1x512_5_2_0 : ∀ a, (![5, 2, 0] : Fin 3 → Nat) a + S1x1x512.size a ≤ S8x8x512.size a
  inb_S1x8x512x512_S1x1x64x512_0_5_128_0 : ∀ a, (![0, 5, 128, 0] : Fin 4 → Nat) a + S1x1x64x512.size a ≤ S1x8x512x512.size a
  inb_S8x8x512_S1x1x512_5_3_0 : ∀ a, (![5, 3, 0] : Fin 3 → Nat) a + S1x1x512.size a ≤ S8x8x512.size a
  inb_S1x8x512x512_S1x1x64x512_0_5_192_0 : ∀ a, (![0, 5, 192, 0] : Fin 4 → Nat) a + S1x1x64x512.size a ≤ S1x8x512x512.size a
  inb_S8x8x512_S1x1x512_5_4_0 : ∀ a, (![5, 4, 0] : Fin 3 → Nat) a + S1x1x512.size a ≤ S8x8x512.size a
  inb_S1x8x512x512_S1x1x64x512_0_5_256_0 : ∀ a, (![0, 5, 256, 0] : Fin 4 → Nat) a + S1x1x64x512.size a ≤ S1x8x512x512.size a
  inb_S8x8x512_S1x1x512_5_5_0 : ∀ a, (![5, 5, 0] : Fin 3 → Nat) a + S1x1x512.size a ≤ S8x8x512.size a
  inb_S1x8x512x512_S1x1x64x512_0_5_320_0 : ∀ a, (![0, 5, 320, 0] : Fin 4 → Nat) a + S1x1x64x512.size a ≤ S1x8x512x512.size a
  inb_S8x8x512_S1x1x512_5_6_0 : ∀ a, (![5, 6, 0] : Fin 3 → Nat) a + S1x1x512.size a ≤ S8x8x512.size a
  inb_S1x8x512x512_S1x1x64x512_0_5_384_0 : ∀ a, (![0, 5, 384, 0] : Fin 4 → Nat) a + S1x1x64x512.size a ≤ S1x8x512x512.size a
  inb_S8x8x512_S1x1x512_5_7_0 : ∀ a, (![5, 7, 0] : Fin 3 → Nat) a + S1x1x512.size a ≤ S8x8x512.size a
  inb_S1x8x512x512_S1x1x64x512_0_5_448_0 : ∀ a, (![0, 5, 448, 0] : Fin 4 → Nat) a + S1x1x64x512.size a ≤ S1x8x512x512.size a
  slices_S64x512_o0_384_S64x128 : S64x512.Slices ![0, 384] S64x128
  slices_S64x512_o0_0_S64x384 : S64x512.Slices ![0, 0] S64x384
  concatenates_S64x128_S64x384_S64x512_d1 : Shape.Concatenates [S64x128, S64x384] S64x512 1
  inb_S8x8x512_S1x1x512_6_0_0 : ∀ a, (![6, 0, 0] : Fin 3 → Nat) a + S1x1x512.size a ≤ S8x8x512.size a
  inb_S1x8x512x512_S1x1x64x512_0_6_0_0 : ∀ a, (![0, 6, 0, 0] : Fin 4 → Nat) a + S1x1x64x512.size a ≤ S1x8x512x512.size a
  inb_S8x8x512_S1x1x512_6_1_0 : ∀ a, (![6, 1, 0] : Fin 3 → Nat) a + S1x1x512.size a ≤ S8x8x512.size a
  inb_S1x8x512x512_S1x1x64x512_0_6_64_0 : ∀ a, (![0, 6, 64, 0] : Fin 4 → Nat) a + S1x1x64x512.size a ≤ S1x8x512x512.size a
  inb_S8x8x512_S1x1x512_6_2_0 : ∀ a, (![6, 2, 0] : Fin 3 → Nat) a + S1x1x512.size a ≤ S8x8x512.size a
  inb_S1x8x512x512_S1x1x64x512_0_6_128_0 : ∀ a, (![0, 6, 128, 0] : Fin 4 → Nat) a + S1x1x64x512.size a ≤ S1x8x512x512.size a
  inb_S8x8x512_S1x1x512_6_3_0 : ∀ a, (![6, 3, 0] : Fin 3 → Nat) a + S1x1x512.size a ≤ S8x8x512.size a
  inb_S1x8x512x512_S1x1x64x512_0_6_192_0 : ∀ a, (![0, 6, 192, 0] : Fin 4 → Nat) a + S1x1x64x512.size a ≤ S1x8x512x512.size a
  inb_S8x8x512_S1x1x512_6_4_0 : ∀ a, (![6, 4, 0] : Fin 3 → Nat) a + S1x1x512.size a ≤ S8x8x512.size a
  inb_S1x8x512x512_S1x1x64x512_0_6_256_0 : ∀ a, (![0, 6, 256, 0] : Fin 4 → Nat) a + S1x1x64x512.size a ≤ S1x8x512x512.size a
  inb_S8x8x512_S1x1x512_6_5_0 : ∀ a, (![6, 5, 0] : Fin 3 → Nat) a + S1x1x512.size a ≤ S8x8x512.size a
  inb_S1x8x512x512_S1x1x64x512_0_6_320_0 : ∀ a, (![0, 6, 320, 0] : Fin 4 → Nat) a + S1x1x64x512.size a ≤ S1x8x512x512.size a
  inb_S8x8x512_S1x1x512_6_6_0 : ∀ a, (![6, 6, 0] : Fin 3 → Nat) a + S1x1x512.size a ≤ S8x8x512.size a
  inb_S1x8x512x512_S1x1x64x512_0_6_384_0 : ∀ a, (![0, 6, 384, 0] : Fin 4 → Nat) a + S1x1x64x512.size a ≤ S1x8x512x512.size a
  inb_S8x8x512_S1x1x512_6_7_0 : ∀ a, (![6, 7, 0] : Fin 3 → Nat) a + S1x1x512.size a ≤ S8x8x512.size a
  inb_S1x8x512x512_S1x1x64x512_0_6_448_0 : ∀ a, (![0, 6, 448, 0] : Fin 4 → Nat) a + S1x1x64x512.size a ≤ S1x8x512x512.size a
  slices_S64x512_o0_448_S64x64 : S64x512.Slices ![0, 448] S64x64
  slices_S64x512_o0_0_S64x448 : S64x512.Slices ![0, 0] S64x448
  concatenates_S64x64_S64x448_S64x512_d1 : Shape.Concatenates [S64x64, S64x448] S64x512 1
  inb_S8x8x512_S1x1x512_7_0_0 : ∀ a, (![7, 0, 0] : Fin 3 → Nat) a + S1x1x512.size a ≤ S8x8x512.size a
  inb_S1x8x512x512_S1x1x64x512_0_7_0_0 : ∀ a, (![0, 7, 0, 0] : Fin 4 → Nat) a + S1x1x64x512.size a ≤ S1x8x512x512.size a
  inb_S8x8x512_S1x1x512_7_1_0 : ∀ a, (![7, 1, 0] : Fin 3 → Nat) a + S1x1x512.size a ≤ S8x8x512.size a
  inb_S1x8x512x512_S1x1x64x512_0_7_64_0 : ∀ a, (![0, 7, 64, 0] : Fin 4 → Nat) a + S1x1x64x512.size a ≤ S1x8x512x512.size a
  inb_S8x8x512_S1x1x512_7_2_0 : ∀ a, (![7, 2, 0] : Fin 3 → Nat) a + S1x1x512.size a ≤ S8x8x512.size a
  inb_S1x8x512x512_S1x1x64x512_0_7_128_0 : ∀ a, (![0, 7, 128, 0] : Fin 4 → Nat) a + S1x1x64x512.size a ≤ S1x8x512x512.size a
  inb_S8x8x512_S1x1x512_7_3_0 : ∀ a, (![7, 3, 0] : Fin 3 → Nat) a + S1x1x512.size a ≤ S8x8x512.size a
  inb_S1x8x512x512_S1x1x64x512_0_7_192_0 : ∀ a, (![0, 7, 192, 0] : Fin 4 → Nat) a + S1x1x64x512.size a ≤ S1x8x512x512.size a
  inb_S8x8x512_S1x1x512_7_4_0 : ∀ a, (![7, 4, 0] : Fin 3 → Nat) a + S1x1x512.size a ≤ S8x8x512.size a
  inb_S1x8x512x512_S1x1x64x512_0_7_256_0 : ∀ a, (![0, 7, 256, 0] : Fin 4 → Nat) a + S1x1x64x512.size a ≤ S1x8x512x512.size a
  inb_S8x8x512_S1x1x512_7_5_0 : ∀ a, (![7, 5, 0] : Fin 3 → Nat) a + S1x1x512.size a ≤ S8x8x512.size a
  inb_S1x8x512x512_S1x1x64x512_0_7_320_0 : ∀ a, (![0, 7, 320, 0] : Fin 4 → Nat) a + S1x1x64x512.size a ≤ S1x8x512x512.size a
  inb_S8x8x512_S1x1x512_7_6_0 : ∀ a, (![7, 6, 0] : Fin 3 → Nat) a + S1x1x512.size a ≤ S8x8x512.size a
  inb_S1x8x512x512_S1x1x64x512_0_7_384_0 : ∀ a, (![0, 7, 384, 0] : Fin 4 → Nat) a + S1x1x64x512.size a ≤ S1x8x512x512.size a
  inb_S8x8x512_S1x1x512_7_7_0 : ∀ a, (![7, 7, 0] : Fin 3 → Nat) a + S1x1x512.size a ≤ S8x8x512.size a
  inb_S1x8x512x512_S1x1x64x512_0_7_448_0 : ∀ a, (![0, 7, 448, 0] : Fin 4 → Nat) a + S1x1x64x512.size a ≤ S1x8x512x512.size a
  gather_S64x64_S64x64x1_S64x64_n_1_0_0_1_2_11_wf : GatherDims.WF S64x64 S64x64x1 S64x64 [] [1] [0] [1] [0] 2 ![1, 1]
  hrank0 : 0 < grid0.rank
  k0_mult1_dvd : ∀ i : grid0.Coords, 64 ∣ (k0_mult1 i).toNat
  k0_mult2_dvd : ∀ i : grid0.Coords, 64 ∣ (k0_mult2 i).toNat
  k0_mult3_dvd : ∀ i : grid0.Coords, 64 ∣ (k0_mult3 i).toNat
  k0_mult4_dvd : ∀ i : grid0.Coords, 64 ∣ (k0_mult4 i).toNat
  k0_mult5_dvd : ∀ i : grid0.Coords, 64 ∣ (k0_mult5 i).toNat
  k0_mult6_dvd : ∀ i : grid0.Coords, 64 ∣ (k0_mult6 i).toNat
  k0_mult7_dvd : ∀ i : grid0.Coords, 64 ∣ (k0_mult7 i).toNat
  k0_mult8_dvd : ∀ i : grid0.Coords, 64 ∣ (k0_mult8 i).toNat
  k0_mult9_dvd : ∀ i : grid0.Coords, 64 ∣ (k0_mult9 i).toNat
  k0_off1_inb : ∀ i : grid0.Coords, ∀ (r : Fin 8), ∀ a, (k0_off1 i (BitVec.ofNat 32 r.val)) a + S1x1x64x512.size a ≤ S1x8x512x512.size a
  k0_off2_inb : ∀ i : grid0.Coords, ∀ (r : Fin 9), ∀ a, (k0_off2 i (BitVec.ofNat 32 r.val)) a + S1x1x64x512.size a ≤ S1x8x512x512.size a
  k0_off3_inb : ∀ i : grid0.Coords, ∀ (r : Fin 9), ∀ a, (k0_off3 i (BitVec.ofNat 32 r.val)) a + S1x1x64x512.size a ≤ S1x8x512x512.size a
  k0_off4_inb : ∀ i : grid0.Coords, ∀ (r : Fin 9), ∀ a, (k0_off4 i (BitVec.ofNat 32 r.val)) a + S1x1x64x512.size a ≤ S1x8x512x512.size a
  k0_off5_inb : ∀ i : grid0.Coords, ∀ (r : Fin 9), ∀ a, (k0_off5 i (BitVec.ofNat 32 r.val)) a + S1x1x64x512.size a ≤ S1x8x512x512.size a
  k0_off6_inb : ∀ i : grid0.Coords, ∀ (r : Fin 9), ∀ a, (k0_off6 i (BitVec.ofNat 32 r.val)) a + S1x1x64x512.size a ≤ S1x8x512x512.size a
  k0_off7_inb : ∀ i : grid0.Coords, ∀ (r : Fin 9), ∀ a, (k0_off7 i (BitVec.ofNat 32 r.val)) a + S1x1x64x512.size a ≤ S1x8x512x512.size a
  k0_off8_inb : ∀ i : grid0.Coords, ∀ (r : Fin 9), ∀ a, (k0_off8 i (BitVec.ofNat 32 r.val)) a + S1x1x64x512.size a ≤ S1x8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S4x64x512x512.size a
  hwx0_0 : ∀ i : grid0.Coords, EltTy.bits .f32 = 32 ∨ (Rect.block (s := S4x64x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x512.size a ≤ S64x8x512.size a
  hwx0_1 : ∀ i : grid0.Coords, EltTy.bits .f32 = 32 ∨ (Rect.block (s := S64x8x512) S8x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x512.size a ≤ S4x64x512x512.size a
  hwx0_2 : ∀ i : grid0.Coords, EltTy.bits .f32 = 32 ∨ (Rect.block (s := S4x64x512x512) S1x8x512x512.size (cc0_transform_2 i) (hinb0_2 i)).WholeWords (EltTy.packing .f32)

variable [Facts₀]

def gather_S64x64_S64x64x1_S64x64_n_1_0_0_1_2_11 : GatherDims S64x64 S64x64x1 S64x64 where
  offsetDims := []
  collapsedSliceDims := [1]
  operandBatchingDims := [0]
  startIndicesBatchingDims := [0]
  startIndexMap := [1]
  indexVectorDim := 2
  sliceSizes := ![1, 1]
  wf := gather_S64x64_S64x64x1_S64x64_n_1_0_0_1_2_11_wf

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S1x1x64x64x1x1 : Shape := ⟨6, ![1, 1, 64, 64, 1, 1]⟩
abbrev S4x64x8x64x8x64 : Shape := ⟨6, ![4, 64, 8, 64, 8, 64]⟩
abbrev S4x64x64x64x8x8 : Shape := ⟨6, ![4, 64, 64, 64, 8, 8]⟩
abbrev S4x64x64x64x64 : Shape := ⟨5, ![4, 64, 64, 64, 64]⟩
abbrev S64x64x1x1 : Shape := ⟨4, ![64, 64, 1, 1]⟩
abbrev S1x64x64x1x1 : Shape := ⟨5, ![1, 64, 64, 1, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S64x64x2 : Shape := ⟨3, ![64, 64, 2]⟩

abbrev nBuf : Space → Nat
  | .hbm => 62
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S1x1x64x64x1x1, .f32⟩
  | .hbm, ⟨2, _⟩ => ⟨S4x64x8x64x8x64, .f32⟩
  | .hbm, ⟨3, _⟩ => ⟨S4x64x64x64x8x8, .f32⟩
  | .hbm, ⟨4, _⟩ => ⟨S4x64x64x64x64, .f32⟩
  | .hbm, ⟨5, _⟩ => ⟨S4x64x64x64x64, .f32⟩
  | .hbm, ⟨6, _⟩ => ⟨S64x64x1x1, .f32⟩
  | .hbm, ⟨7, _⟩ => ⟨S1x64x64x1x1, .f32⟩
  | .hbm, ⟨8, _⟩ => ⟨S4x64x64x64x64, .f32⟩
  | .hbm, ⟨9, _⟩ => ⟨S4x64x64x64x64, .f32⟩
  | .hbm, ⟨10, _⟩ => ⟨S64, .i32⟩
  | .hbm, ⟨11, _⟩ => ⟨S64x1, .i32⟩
  | .hbm, ⟨12, _⟩ => ⟨S1x64, .i32⟩
  | .hbm, ⟨13, _⟩ => ⟨S64x64, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i1⟩
  | .hbm, ⟨27, _⟩ => ⟨S_, .i32⟩
  | .hbm, ⟨28, _⟩ => ⟨S64x64, .i32⟩
  | .hbm, ⟨29, _⟩ => ⟨S64x64, .i1⟩
  | .hbm, ⟨30, _⟩ => ⟨S_, .i32⟩
  | .hbm, ⟨31, _⟩ => ⟨S_, .i1⟩
  | .hbm, ⟨32, _⟩ => ⟨S64x64, .i1⟩
  | .hbm, ⟨33, _⟩ => ⟨S64x64, .i1⟩
  | .hbm, ⟨34, _⟩ => ⟨S64x64, .i1⟩
  | .hbm, ⟨35, _⟩ => ⟨S64x64, .i32⟩
  | .hbm, ⟨36, _⟩ => ⟨S64x64, .i32⟩
  | .hbm, ⟨37, _⟩ => ⟨S64x64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i1⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x64, .i32⟩
  | .hbm, ⟨48, _⟩ => ⟨S64x64, .i1⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64x1, .i32⟩
  | .hbm, ⟨55, _⟩ => ⟨S64x64x1, .i32⟩
  | .hbm, ⟨56, _⟩ => ⟨S64x64x2, .i32⟩
  | .hbm, ⟨57, _⟩ => ⟨S4x64x64x64x64, .f32⟩
  | .hbm, ⟨58, _⟩ => ⟨S4x64x64x64x64, .f32⟩
  | .hbm, ⟨59, _⟩ => ⟨S4x64x64x64x8x8, .f32⟩
  | .hbm, ⟨60, _⟩ => ⟨S4x64x8x64x8x64, .f32⟩
  | .hbm, ⟨61, _⟩ => ⟨S4x64x512x512, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]

class Facts₀ : Prop where
  shapeCasts_S4x64x512x512_S4x64x8x64x8x64 : S4x64x512x512.ShapeCasts S4x64x8x64x8x64
  transposes_S4x64x8x64x8x64_S4x64x64x64x8x8_0_1_3_5_2_4 : S4x64x8x64x8x64.Transposes [0, 1, 3, 5, 2, 4] S4x64x64x64x8x8
  shapeCasts_S4x64x64x64x8x8_S4x64x64x64x64 : S4x64x64x64x8x8.ShapeCasts S4x64x64x64x64
  transposes_S4x64x64x64x64_S4x64x64x64x64_0_1_4_2_3 : S4x64x64x64x64.Transposes [0, 1, 4, 2, 3] S4x64x64x64x64
  shapeCasts_S1x1x64x64x1x1_S64x64x1x1 : S1x1x64x64x1x1.ShapeCasts S64x64x1x1
  bcast_S64x64x1x1_S1x64x64x1x1_1_2_3_4 : S64x64x1x1.BroadcastsInDim S1x64x64x1x1 (![1, 2, 3, 4] : Fin 4 → Fin S1x64x64x1x1.rank)
  bcast_S1x64x64x1x1_S4x64x64x64x64_0_1_2_3_4 : S1x64x64x1x1.BroadcastsInDim S4x64x64x64x64 (![0, 1, 2, 3, 4] : Fin 5 → Fin S4x64x64x64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64x1 : S_.BroadcastsInDim S64x1 (![] : Fin 0 → Fin S64x1.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  transposes_S4x64x64x64x64_S4x64x64x64x64_0_1_3_4_2 : S4x64x64x64x64.Transposes [0, 1, 3, 4, 2] S4x64x64x64x64
  shapeCasts_S4x64x64x64x64_S4x64x64x64x8x8 : S4x64x64x64x64.ShapeCasts S4x64x64x64x8x8
  transposes_S4x64x64x64x8x8_S4x64x8x64x8x64_0_1_4_2_5_3 : S4x64x64x64x8x8.Transposes [0, 1, 4, 2, 5, 3] S4x64x8x64x8x64
  shapeCasts_S4x64x8x64x8x64_S4x64x512x512 : S4x64x8x64x8x64.ShapeCasts S4x64x512x512
  gather_S4x64x64x64x64_S64x64x2_S4x64x64x64x64_034_12_n_n_12_2_4116464_wf : GatherDims.WF S4x64x64x64x64 S64x64x2 S4x64x64x64x64 [0, 3, 4] [1, 2] [] [1, 2] [] 2 ![4, 1, 1, 64, 64]

variable [Facts₀]

def gather_S4x64x64x64x64_S64x64x2_S4x64x64x64x64_034_12_n_n_12_2_4116464 : GatherDims S4x64x64x64x64 S64x64x2 S4x64x64x64x64 where
  offsetDims := [0, 3, 4]
  collapsedSliceDims := [1, 2]
  operandBatchingDims := []
  startIndicesBatchingDims := []
  startIndexMap := [1, 2]
  indexVectorDim := 2
  sliceSizes := ![4, 1, 1, 64, 64]
  wf := gather_S4x64x64x64x64_S64x64x2_S4x64x64x64x64_034_12_n_n_12_2_4116464_wf

class Facts : Prop extends Facts₀ where

variable [Facts]
-- ==== Proof.Spec.lean ====
/-
  The specification both programs meet, stated once over the argument arrays.

  The image is cut into an 8 x 8 grid of 64 x 64 patches; patch number `m = 8 u + v` is the one in row band `u`
  and column band `v`. For channel `c` the output's patch `q` is the input's patch `(c + q) mod 64` with the
  positional value `pos[c, (c + q) mod 64]` added to each of its elements:

    out[b, c, 64 u' + i, 64 v' + j] = x[b, c, 64 (m / 8) + i, 64 (m mod 8) + j] + pos[c, m],   m = (c + 8 u' + v') mod 64.

  `G` is that function of the whole arrays; `Bias` is the positional table already laid out by output
  (channel, row band, column), the array the kernel's host code prepares.
-/
import Idealize.ShloMosaic.PureOps.Ideal
import Idealize.ShloMosaic.Lib.ValueIdx
import Idealize.ShloMosaic.Lib.ValueIdxRank6

noncomputable section

namespace Cert.CrossPatch

open Idealize.ShloMosaic Idealize.ShloMosaic.ValueIdx

/-- The image array [batch, channel, row, column]. -/
abbrev SX : Shape := ⟨4, ![4, 64, 512, 512]⟩
/-- The positional table [1, 1, channel, patch, 1, 1]. -/
abbrev SP : Shape := ⟨6, ![1, 1, 64, 64, 1, 1]⟩
/-- The positional table laid out by output [channel, row band, column]. -/
abbrev SB : Shape := ⟨3, ![64, 8, 512]⟩

/-- The source patch of channel `c`'s output element at row `r`, column `w`. -/
def patch (c r w : Nat) : Nat := (c + 8 * (r / 64) + w / 64) % 64

theorem patch_lt (c r w : Nat) : patch c r w < 64 := Nat.mod_lt _ (by decide)

/-- The source row: the source patch's row band, the same row inside the band. -/
def srcRow (c r w : Nat) : Nat := patch c r w / 8 * 64 + r % 64
/-- The source column: the source patch's column band, the same column inside the band. -/
def srcCol (c r w : Nat) : Nat := patch c r w % 8 * 64 + w % 64

theorem srcRow_lt (c r w : Nat) : srcRow c r w < 512 := by
  unfold srcRow; have := patch_lt c r w; omega
theorem srcCol_lt (c r w : Nat) : srcCol c r w < 512 := by
  unfold srcCol; have := patch_lt c r w; omega

/-- Where the output element at `i` comes from in the image. -/
def srcIdx (i : SX.Idx) : SX.Idx :=
  ix4 (i 0) (i 1) ⟨srcRow (i 1).val (i 2).val (i 3).val, srcRow_lt _ _ _⟩ ⟨srcCol (i 1).val (i 2).val (i 3).val, srcCol_lt _ _ _⟩

/-- Entry (channel `c`, patch `m`) of the positional table. -/
def posIdx (c m : Fin 64) : SP.Idx := ix6 0 0 c m 0 0

/-- The common value of the two programs: the permuted image plus the positional value of the source patch. -/
def G (x : SX.Idx → EReal) (p : SP.Idx → EReal) : SX.Idx → EReal :=
  fun i => x (srcIdx i) + p (posIdx (i 1) ⟨patch (i 1).val (i 2).val (i 3).val, patch_lt _ _ _⟩)

/-- The positional table by output position: channel `c`, row band `u`, column `w` holds `pos[c, (c + 8 u + w / 64) mod 64]`. -/
def Bias (p : SP.Idx → EReal) : SB.Idx → EReal :=
  fun j => p (posIdx (j 0) ⟨((j 0).val + 8 * (j 1).val + (j 2).val / 64) % 64, Nat.mod_lt _ (by decide)⟩)

theorem srcIdx_0 (i : SX.Idx) : srcIdx i 0 = i 0 := rfl
theorem srcIdx_1 (i : SX.Idx) : srcIdx i 1 = i 1 := rfl
theorem srcIdx_2 (i : SX.Idx) : (srcIdx i 2).val = srcRow (i 1).val (i 2).val (i 3).val := rfl
theorem srcIdx_3 (i : SX.Idx) : (srcIdx i 3).val = srcCol (i 1).val (i 2).val (i 3).val := rfl

/-- An index of the image with the source's coordinates is the source index. -/
theorem eq_srcIdx (i k : SX.Idx) (h0 : (k 0).val = (i 0).val) (h1 : (k 1).val = (i 1).val)
    (h2 : (k 2).val = srcRow (i 1).val (i 2).val (i 3).val) (h3 : (k 3).val = srcCol (i 1).val (i 2).val (i 3).val) :
    k = srcIdx i := by
  funext a
  match a with
  | ⟨0, _⟩ => exact Fin.ext h0
  | ⟨1, _⟩ => exact Fin.ext h1
  | ⟨2, _⟩ => exact Fin.ext h2
  | ⟨3, _⟩ => exact Fin.ext h3

/-- An index of the positional table with channel `c` and patch `m` is `posIdx c m`. -/
theorem eq_posIdx (k : SP.Idx) (c m : Fin 64) (h2 : (k 2).val = c.val) (h3 : (k 3).val = m.val) : k = posIdx c m := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)
  | ⟨2, _⟩ => exact Fin.ext h2
  | ⟨3, _⟩ => exact Fin.ext h3
  | ⟨4, _⟩ => exact Fin.ext (by have h : (k 4).val < 1 := (k 4).isLt; show (k 4).val = 0; omega)
  | ⟨5, _⟩ => exact Fin.ext (by have h : (k 5).val < 1 := (k 5).isLt; show (k 5).val = 0; omega)

/-! ## The same, one block at a time

The kernel works on blocks: for batch `b` and channel group `a` (channels `8 a` … `8 a + 7`) it reads the image block
[1, 8, 512, 512] and the positional block [8, 8, 512] and writes the output block [1, 8, 512, 512]. For local
channel `lc` (channel `c = 8 a + lc`) the source patch `m = (c + 8 u' + v') mod 64` has row band
`(a + u' + (lc + v') / 8) mod 8` and column band `(lc + v') mod 8`. -/

/-- An image block [1, local channel, row, column]. -/
abbrev SXB : Shape := ⟨4, ![1, 8, 512, 512]⟩
/-- A block of the positional table by output [local channel, row band, column]. -/
abbrev SBB : Shape := ⟨3, ![8, 8, 512]⟩

/-- The source row inside the block of channel group `a`. -/
def blkRow (a lc r w : Nat) : Nat := (a + r / 64 + (lc + w / 64) / 8) % 8 * 64 + r % 64
/-- The source column inside the block. -/
def blkCol (lc w : Nat) : Nat := (lc + w / 64) % 8 * 64 + w % 64

theorem blkRow_lt (a lc r w : Nat) : blkRow a lc r w < 512 := by unfold blkRow; omega
theorem blkCol_lt (lc w : Nat) : blkCol lc w < 512 := by unfold blkCol; omega

/-- With `c = 8 a + lc` the block's source row and column are the image's. -/
theorem srcRow_eq_blkRow (a lc r w : Nat) (hlc : lc < 8) (hw : w < 512) : srcRow (8 * a + lc) r w = blkRow a lc r w := by
  unfold srcRow blkRow patch; omega
theorem srcCol_eq_blkCol (a lc r w : Nat) (hlc : lc < 8) (hw : w < 512) : srcCol (8 * a + lc) r w = blkCol lc w := by
  unfold srcCol blkCol patch; omega

/-- Where the output block's element at `y` comes from in the image block, for channel group `a`. -/
def blkSrc (a : Nat) (y : SXB.Idx) : SXB.Idx :=
  ix4 (y 0) (y 1) ⟨blkRow a (y 1).val (y 2).val (y 3).val, blkRow_lt _ _ _ _⟩ ⟨blkCol (y 1).val (y 3).val, blkCol_lt _ _⟩

/-- The positional block's entry added to the output block's element at `y`: its channel, its row band, its column. -/
def blkBias (y : SXB.Idx) : SBB.Idx :=
  ix3 (y 1) ⟨(y 2).val / 64, by have h : (y 2).val < 512 := (y 2).isLt; omega⟩ (y 3)

/-- The output block of channel group `a` as a function of the image block and the positional block. -/
def Gblk (a : Nat) (x0 : SXB.Idx → EReal) (x1 : SBB.Idx → EReal) : SXB.Idx → EReal :=
  fun y => x0 (blkSrc a y) + x1 (blkBias y)

theorem blkSrc_0 (a : Nat) (y : SXB.Idx) : blkSrc a y 0 = y 0 := rfl
theorem blkSrc_1 (a : Nat) (y : SXB.Idx) : blkSrc a y 1 = y 1 := rfl
theorem blkSrc_2 (a : Nat) (y : SXB.Idx) : (blkSrc a y 2).val = blkRow a (y 1).val (y 2).val (y 3).val := rfl
theorem blkSrc_3 (a : Nat) (y : SXB.Idx) : (blkSrc a y 3).val = blkCol (y 1).val (y 3).val := rfl
theorem blkBias_0 (y : SXB.Idx) : blkBias y 0 = y 1 := rfl
theorem blkBias_1 (y : SXB.Idx) : (blkBias y 1).val = (y 2).val / 64 := rfl
theorem blkBias_2 (y : SXB.Idx) : blkBias y 2 = y 3 := rfl

/-- An index of the image block with the source's coordinates is the source index. -/
theorem eq_blkSrc (a : Nat) (y k : SXB.Idx) (h1 : (k 1).val = (y 1).val)
    (h2 : (k 2).val = blkRow a (y 1).val (y 2).val (y 3).val) (h3 : (k 3).val = blkCol (y 1).val (y 3).val) :
    k = blkSrc a y := by
  funext d
  match d with
  | ⟨0, _⟩ => exact Fin.ext (by have h : (k 0).val < 1 := (k 0).isLt; have h' : (y 0).val < 1 := (y 0).isLt; show (k 0).val = (y 0).val; omega)
  | ⟨1, _⟩ => exact Fin.ext h1
  | ⟨2, _⟩ => exact Fin.ext h2
  | ⟨3, _⟩ => exact Fin.ext h3

/-- An index of the positional block with the output element's channel, row band and column is `blkBias`. -/
theorem eq_blkBias (y : SXB.Idx) (k : SBB.Idx) (h0 : (k 0).val = (y 1).val) (h1 : (k 1).val = (y 2).val / 64)
    (h2 : (k 2).val = (y 3).val) : k = blkBias y := by
  funext d
  match d with
  | ⟨0, _⟩ => exact Fin.ext h0
  | ⟨1, _⟩ => exact Fin.ext h1
  | ⟨2, _⟩ => exact Fin.ext h2

end Cert.CrossPatch

end
-- ==== Proof.KernelHost.lean ====
/-
  The positional array the kernel's host code prepares before the launch, read index by index at the extended
  reals, is the specification's `Bias` of the positional argument.
-/
import proofs.«426089_j48120813584595_3_alg».proof.Proof.Gen.KernelIdeal.Frame.Runs
import proofs.«426089_j48120813584595_3_alg».proof.Proof.Spec
import Idealize.ShloMosaic.Lib.StableHlo.Run
import Idealize.ShloMosaic.Lib.Pipeline.Value
import Idealize.ShloMosaic.Lib.ValueIdx
import Idealize.ShloMosaic.Lib.ValueIdxRank6
import Idealize.ShloMosaic.Lib.StableHlo.Predicate
import Idealize.ShloMosaic.Lib.Affine

noncomputable section

namespace Cert.KernelIdeal.HostValue

open Cert.KernelIdeal Cert.KernelIdeal.Gen Idealize.ShloMosaic Idealize.ShloMosaic.TcCoe Idealize.SL.Sem Idealize.ShloMosaic.ValueIdx

/-! ## The host operations as one term -/

section Term
variable {F : FTy → Type} [FloatOps F]

/-- Entry [c, u, v] is the word `c + 8 u + v`. -/
def sumW : IVec S64x8x8 32 :=
  addi
    (broadcastInDim S64x8x8 ![0, 1, 2] bcast_S64x8x1_S64x8x8_0_1_2
      (addi
        (broadcastInDim S64x8x1 ![0, 1, 2] bcast_S64x1x1_S64x8x1_0_1_2
          (broadcastInDim S64x1x1 ![0] bcast_S64_S64x1x1_0 (iotaInDim S64 32 0)))
        (broadcastInDim S64x8x1 ![0, 1, 2] bcast_S1x8x1_S64x8x1_0_1_2
          (muli (broadcastInDim S1x8x1 ![] bcast_S_S1x8x1 (constantI S_ 32 8#32))
            (broadcastInDim S1x8x1 ![1] bcast_S8_S1x8x1_1 (iotaInDim S8 32 0))))))
    (broadcastInDim S64x8x8 ![0, 1, 2] bcast_S1x1x8_S64x8x8_0_1_2
      (broadcastInDim S1x1x8 ![2] bcast_S8_S1x1x8_2 (iotaInDim S8 32 0)))

/-- The divisor the host's remainder uses: 64, or 1 were it 0. -/
def divisor : IVec S_ 32 :=
  select (cmpi .eq (id (constantI S_ 32 64#32)) (constantI S_ 32 0#32)) (constantI S_ 32 1#32) (id (constantI S_ 32 64#32))

/-- The truncated remainder by the divisor. -/
def truncRem (x : IVec S64x8x8 32) : IVec S64x8x8 32 :=
  Host.remsi x (broadcastInDim S64x8x8 ![] bcast_S_S64x8x8 divisor)

/-- The host's floored remainder: the truncated one, the divisor added where the signs differ and it is not zero. -/
def floorRem (x : IVec S64x8x8 32) : IVec S64x8x8 32 :=
  select
    (andi
      (cmpi .ne (cmpi .slt (truncRem x) (broadcastInDim S64x8x8 ![] bcast_S_S64x8x8 (constantI S_ 32 0#32)))
        (broadcastInDim S64x8x8 ![] bcast_S_S64x8x8 (cmpi .slt divisor (constantI S_ 32 0#32))))
      (cmpi .ne (truncRem x) (broadcastInDim S64x8x8 ![] bcast_S_S64x8x8 (constantI S_ 32 0#32))))
    (addi (truncRem x) (broadcastInDim S64x8x8 ![] bcast_S_S64x8x8 divisor))
    (truncRem x)

/-- The index table [64, 64, 1] a take along axis 1 reads: a negative index wrapped by 64. -/
def wrapIdx (idx : IVec S64x64 32) : IVec S64x64x1 32 :=
  shapeCast S64x64x1
    (select (cmpi .slt idx (broadcastInDim S64x64 ![] bcast_S_S64x64 (constantI S_ 32 0#32)))
      (addi idx (broadcastInDim S64x64 ![] bcast_S_S64x64 (constantI S_ 32 64#32))) idx)
    shapeCasts_S64x64_S64x64x1

/-- Where the wrapped index is between 0 and 63. -/
def inRange (i : IVec S64x64x1 32) : IVec S64x64 1 :=
  Host.reduce IntOp.andi
    (andi (cmpi .sge i (broadcastInDim S64x64x1 ![] bcast_S_S64x64x1 (constantI S_ 32 0#32)))
      (cmpi .sle i (broadcastInDim S64x64x1 ![0, 1, 2] bcast_S1x1x1_S64x64x1_0_1_2
        (broadcastInDim S1x1x1 ![2] bcast_S1_S1x1x1_2 (constantI S1 32 63#32)))))
    (constantI S_ 1 1#1) reducesTo_S64x64x1_S64x64_d2 h_S_

/-- The take along axis 1: row `c` of `p` read at the index table's entries, a not-a-number where the index is out of range. -/
def takeRow (p : Vec F S64x64 .f32) (idx : IVec S64x64 32) : Vec F S64x64 .f32 :=
  select (inRange (wrapIdx idx))
    (Host.gather gather_S64x64_S64x64x1_S64x64_n_1_0_0_1_2_11 p (wrapIdx idx))
    (broadcastInDim S64x64 ![] bcast_S_S64x64 (constant (F := F) S_ .f32 0x7FC00000#32))

/-- The prepared positional array as a term of the positional argument. -/
def biasTerm (p : Vec F S1x1x64x64x1x1 .f32) : Vec F S64x8x512 .f32 :=
  shapeCast S64x8x512
    (broadcastInDim S64x8x8x64 ![0, 1, 2] bcast_S64x8x8_S64x8x8x64_0_1_2
      (shapeCast S64x8x8
        (takeRow (shapeCast S64x64 p shapeCasts_S1x1x64x64x1x1_S64x64)
          (shapeCast S64x64 (floorRem sumW) shapeCasts_S64x8x8_S64x64))
        shapeCasts_S64x64_S64x8x8))
    shapeCasts_S64x8x8x64_S64x8x512

/-- The first thirty-nine operations leave the index words `(c + 8 u + v) mod 64`, laid out [64, 64], in `main_v16`, whatever the buffers held before. -/
theorem stageA_v16 (W : Valuation τ sig (Elt F)) :
    (StableHlo.after hostOps0_2 (StableHlo.after hostOps0_1 (StableHlo.after hostOps0 W)) (Proc.devRef .tc main_v16) : IVec S64x64 32)
      = shapeCast S64x64 (floorRem sumW) shapeCasts_S64x8x8_S64x64 := by
  rw [← StableHlo.after_append, ← StableHlo.after_append]
  simp only [hostOps0, hostOps0_1, hostOps0_2, List.cons_append, List.nil_append]
  after_results_simp
  simp only [StableHlo.TRef.ofBuf, StableHlo.TRef.toBuf, cast_eq]
  rfl

/-- … and the positional argument, laid out [64, 64], in `main_v0`. -/
theorem stageA_v0 (W : Valuation τ sig (Elt F)) :
    (StableHlo.after hostOps0_2 (StableHlo.after hostOps0_1 (StableHlo.after hostOps0 W)) (Proc.devRef .tc main_v0) : Vec F S64x64 .f32)
      = shapeCast S64x64 (W (Proc.devRef .tc main_arg1) : Vec F S1x1x64x64x1x1 .f32) shapeCasts_S1x1x64x64x1x1_S64x64 := by
  rw [← StableHlo.after_append, ← StableHlo.after_append]
  simp only [hostOps0, hostOps0_1, hostOps0_2, List.cons_append, List.nil_append]
  after_results_simp
  rfl

/-- The last twenty-five operations take along the index words and lay the result out [64, 8, 512]. -/
theorem stageB_v20 (W : Valuation τ sig (Elt F)) :
    (StableHlo.after hostOps0_4 (StableHlo.after hostOps0_3 W) (Proc.devRef .tc main_v20) : Vec F S64x8x512 .f32)
      = shapeCast S64x8x512
          (broadcastInDim S64x8x8x64 ![0, 1, 2] bcast_S64x8x8_S64x8x8x64_0_1_2
            (shapeCast S64x8x8
              (takeRow (W (Proc.devRef .tc main_v0) : Vec F S64x64 .f32) (W (Proc.devRef .tc main_v16) : IVec S64x64 32))
              shapeCasts_S64x64_S64x8x8))
          shapeCasts_S64x8x8x64_S64x8x512 := by
  rw [← StableHlo.after_append]
  simp only [hostOps0_3, hostOps0_4, List.cons_append, List.nil_append]
  after_results_simp
  simp only [StableHlo.TRef.ofBuf, StableHlo.TRef.toBuf, cast_eq]
  rfl

/-- The buffer the region reads its positional blocks from holds that term. -/
theorem V_main_v20 (m : (ℓ : Loc nD τ sig) → Buf (Elt F) ℓ) (c : Dev nD) :
    (V m c main_v20 : Vec F S64x8x512 .f32) = biasTerm (m ((c : Thread nD τ).loc main_arg1)) := by
  dsimp only [V]
  simp only [List.flatten_cons, List.flatten_nil, List.append_nil]
  rw [StableHlo.after_append, StableHlo.after_append, StableHlo.after_append, StableHlo.after_append, stageB_v20, stageA_v16, stageA_v0]
  rfl

end Term

/-! ## The term read at an index -/

section Words

/-- The divisor is 64. -/
theorem divisor_apply (i : S_.Idx) : divisor i = 64#32 := rfl

/-- Entry [c, u, v] of the word table. -/
theorem sumW_apply (c : Fin 64) (u v : Fin 8) : sumW (ix3 c u v) = BitVec.ofNat 32 (c.val + 8 * u.val + v.val) := by
  have e : sumW (ix3 c u v)
      = IntOp.addi (IntOp.addi (BitVec.ofNat 32 c.val) (IntOp.muli 8#32 (BitVec.ofNat 32 u.val))) (BitVec.ofNat 32 v.val) := rfl
  rw [e]
  apply BitVec.eq_of_toNat_eq
  have hc := c.isLt; have hu := u.isLt; have hv := v.isLt
  simp only [IntOp.addi, IntOp.muli, BitVec.toNat_add, BitVec.toNat_mul, BitVec.toNat_ofNat]
  omega

/-- A word below 2³¹ is not negative. -/
theorem slt_zero_of_small {r : BitVec 32} (h : r.toNat < 2 ^ 31) : IntOp.cmpi .slt r 0#32 = 0#1 := by
  apply eq_zero_of_ne_one
  intro e
  exact Nat.not_lt_zero _ ((StableHlo.Predicate.slt_iff_toNat h (by decide)).mp e)

/-- The host's floored remainder by 64 of a word that is not negative is the remainder of its value. -/
theorem floorRem_apply (x : IVec S64x8x8 32) (j : S64x8x8.Idx) (hx : (x j).toNat < 2 ^ 31) :
    floorRem x j = BitVec.ofNat 32 ((x j).toNat % 64) := by
  have hr : (IntOp.remsi .host (x j) 64#32).toNat = (x j).toNat % 64 :=
    IntOp.toNat_remsi .host (by omega) 64 (by decide) (by decide)
  have hlt : IntOp.cmpi .slt (IntOp.remsi .host (x j) 64#32) 0#32 = 0#1 :=
    slt_zero_of_small (by rw [hr]; omega)
  have e : floorRem x j
      = Scalar.select
          (IntOp.andi (IntOp.cmpi .ne (IntOp.cmpi .slt (IntOp.remsi .host (x j) 64#32) 0#32) (IntOp.cmpi .slt 64#32 0#32))
            (IntOp.cmpi .ne (IntOp.remsi .host (x j) 64#32) 0#32))
          (IntOp.addi (IntOp.remsi .host (x j) 64#32) 64#32) (IntOp.remsi .host (x j) 64#32) := rfl
  have hc : ∀ b : BitVec 1, IntOp.andi (IntOp.cmpi .ne 0#1 (IntOp.cmpi .slt 64#32 0#32)) b = 0#1 := by decide
  rw [e, hlt, hc, select_zero]
  apply BitVec.eq_of_toNat_eq
  rw [hr, BitVec.toNat_ofNat]; omega

/-- Entry [c, q] of the index table: `(c + q) mod 64`. -/
theorem idxW_apply (c q : Fin 64) :
    shapeCast S64x64 (floorRem sumW) shapeCasts_S64x8x8_S64x64 (ix2 c q) = BitVec.ofNat 32 ((c.val + q.val) % 64) := by
  have hq := q.isLt; have hc := c.isLt
  rw [shapeCast_apply _ _ (ix2 c q) (ix3 c (⟨q.val / 8, by omega⟩ : Fin 8) (⟨q.val % 8, by omega⟩ : Fin 8))
    (by rw [Shape.rowMajor_val_three, Shape.rowMajor_val_two]; show (c.val * 8 + q.val / 8) * 8 + q.val % 8 = c.val * 64 + q.val; omega)]
  rw [floorRem_apply _ _ (by rw [sumW_apply]; simp only [BitVec.toNat_ofNat]; omega), sumW_apply, BitVec.toNat_ofNat]
  congr 1
  show (c.val + 8 * (q.val / 8) + q.val % 8) % 2 ^ 32 % 64 = (c.val + q.val) % 64
  omega

/-- The wrapped index at [c, q, 0] is the index word, when that is not negative. -/
theorem wrapIdx_apply (idx : IVec S64x64 32) (c q : Fin 64) (z : Fin 1) (h : (idx (ix2 c q)).toNat < 2 ^ 31) :
    wrapIdx idx (ix3 c q z) = idx (ix2 c q) := by
  unfold wrapIdx
  rw [shapeCast_apply _ _ (ix3 c q z) (ix2 c q) (by
    rw [Shape.rowMajor_val_three, Shape.rowMajor_val_two]
    have h2 : z.val < 1 := z.isLt
    show c.val * 64 + q.val = (c.val * 64 + q.val) * 1 + z.val; omega)]
  have e : select (cmpi .slt idx (broadcastInDim S64x64 ![] bcast_S_S64x64 (constantI S_ 32 0#32)))
        (addi idx (broadcastInDim S64x64 ![] bcast_S_S64x64 (constantI S_ 32 64#32))) idx (ix2 c q)
      = Scalar.select (IntOp.cmpi .slt (idx (ix2 c q)) 0#32) (IntOp.addi (idx (ix2 c q)) 64#32) (idx (ix2 c q)) := rfl
  rw [e, slt_zero_of_small h, select_zero]

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Index words all between 0 and 63 are everywhere in range. -/
theorem inRange_apply (i : IVec S64x64x1 32) (hi : ∀ k, (i k).toNat < 64) (j : S64x64.Idx) : inRange i j = 1#1 := by
  unfold inRange Host.reduce
  refine foldl_andi_one (fun n => _) (fun n => ?_) _
  show IntOp.andi (IntOp.cmpi .sge (i (S64x64x1.rowMajor.symm n)) 0#32) (IntOp.cmpi .sle (i (S64x64x1.rowMajor.symm n)) 63#32) = 1#1
  have hk := hi (S64x64x1.rowMajor.symm n)
  exact IntOp.andi_eq_one.mpr ⟨(StableHlo.Predicate.sge_iff_toNat (by omega) (by decide)).mpr (Nat.zero_le _),
    (StableHlo.Predicate.sle_iff_toNat (by omega) (by decide)).mpr (by show _ ≤ 63; omega)⟩

end Words

section Take
variable {F : FTy → Type} [FloatOps F]

local notation "dG" => gather_S64x64_S64x64x1_S64x64_n_1_0_0_1_2_11

/-- The batched take read at [c, q]: row `c` of the operand at the index word of [c, q, 0], when that is between 0 and 63. -/
theorem gather_apply {α : Type} (p : S64x64.Idx → α) (i : IVec S64x64x1 32) (c q k : Fin 64)
    (hk : (i (ix3 c q (0 : Fin 1))).toNat = k.val) :
    Host.gather dG p i (ix2 c q) = p (ix2 c k) := by
  have hk' := k.isLt
  unfold Host.gather
  congr 1
  funext a
  refine Fin.ext ?_
  match a with
  | ⟨0, _⟩ =>
    show GatherDims.start dG (ix2 c q) i 0 + GatherDims.batchCoord dG (ix2 c q) 0 + GatherDims.offCoord dG (ix2 c q) 0 = c.val
    rw [GatherDims.start_batching dG _ _ 0 (List.mem_singleton.mpr rfl),
      GatherDims.offCoord_eq_zero dG _ 0 (fun hm => ((GatherDims.mem_sKept dG 0).1 hm).2 (List.mem_singleton.mpr rfl)),
      Nat.zero_add, Nat.add_zero]
    unfold GatherDims.batchCoord
    rw [dif_pos (show (0 : Fin 2) ∈ GatherDims.operandBatchingDims dG from List.mem_singleton.mpr rfl)]
    rfl
  | ⟨1, _⟩ =>
    show GatherDims.start dG (ix2 c q) i 1 + GatherDims.batchCoord dG (ix2 c q) 1 + GatherDims.offCoord dG (ix2 c q) 1 = k.val
    rw [GatherDims.batchCoord_eq_zero dG _ 1 (fun hm => absurd (List.mem_singleton.mp hm) (by decide)),
      GatherDims.offCoord_eq_zero dG _ 1 (fun hm => ((GatherDims.mem_sKept dG 1).1 hm).1 (List.mem_singleton.mpr rfl))]
    unfold GatherDims.start
    rw [dif_pos (show (1 : Fin 2) ∈ GatherDims.startIndexMap dG from List.mem_singleton.mpr rfl)]
    have hsi : GatherDims.siIdx dG (ix2 c q) ⟨List.idxOf 1 (GatherDims.startIndexMap dG),
        List.idxOf_lt_length_iff.2 (List.mem_singleton.mpr rfl)⟩ = ix3 c q (0 : Fin 1) := by
      funext b; refine Fin.ext ?_
      match b with
      | ⟨0, _⟩ => rfl
      | ⟨1, _⟩ => rfl
      | ⟨2, _⟩ => rfl
    rw [hsi, StableHlo.Predicate.toInt_eq_toNat_of_lt (by omega), Int.toNat_natCast, hk]
    show min k.val (64 - 1) + 0 + 0 = k.val
    rw [Nat.min_eq_left (by omega)]
    rfl

/-- The take along axis 1 read at [c, q], for index words all between 0 and 63: row `c` of the operand at the index word. -/
theorem takeRow_apply (p : Vec F S64x64 .f32) (idx : IVec S64x64 32) (hall : ∀ k, (idx k).toNat < 64) (c q k : Fin 64)
    (hk : (idx (ix2 c q)).toNat = k.val) : takeRow p idx (ix2 c q) = p (ix2 c k) := by
  have hw : ∀ j : S64x64x1.Idx, (wrapIdx idx j).toNat < 64 := fun j => by
    obtain ⟨a, b, z, rfl⟩ : ∃ a b z, j = ix3 a b z := ⟨j 0, j 1, j 2, eq_ix3 j⟩
    rw [wrapIdx_apply idx a b z (by have := hall (ix2 a b); omega)]; exact hall _
  unfold takeRow
  rw [select_apply, inRange_apply _ hw, select_one]
  exact gather_apply p (wrapIdx idx) c q k (by rw [wrapIdx_apply idx c q 0 (by have := hall (ix2 c q); omega)]; exact hk)

end Take

/-! ## The prepared array is the specification's -/

/-- Every index word is between 0 and 63. -/
theorem idxW_lt (k : S64x64.Idx) : (shapeCast S64x64 (floorRem sumW) shapeCasts_S64x8x8_S64x64 k).toNat < 64 := by
  obtain ⟨a, b, rfl⟩ : ∃ a b, k = ix2 a b := ⟨k 0, k 1, eq_ix2 k⟩
  rw [idxW_apply, BitVec.toNat_ofNat]; omega

/-- Entry [a, u, w] of the prepared array is the positional value of channel `a`, patch `(a + 8 u + w / 64) mod 64`. -/
theorem biasTerm_apply (p : Vec Ideal S1x1x64x64x1x1 .f32) (a : Fin 64) (u : Fin 8) (w : Fin 512) :
    biasTerm p (ix3 a u w) = Cert.CrossPatch.Bias p (ix3 a u w) := by
  have ha := a.isLt; have hu := u.isLt; have hw := w.isLt
  unfold biasTerm
  rw [shapeCast_apply _ _ (ix3 a u w) (ix4 a u (⟨w.val / 64, by omega⟩ : Fin 8) (⟨w.val % 64, by omega⟩ : Fin 64)) (by
    rw [Shape.rowMajor_val_four, Shape.rowMajor_val_three]
    show ((a.val * 8 + u.val) * 8 + w.val / 64) * 64 + w.val % 64 = (a.val * 8 + u.val) * 512 + w.val; omega)]
  rw [broadcastInDim_apply _ _ _ (ix4 a u (⟨w.val / 64, by omega⟩ : Fin 8) (⟨w.val % 64, by omega⟩ : Fin 64))
    (ix3 a u (⟨w.val / 64, by omega⟩ : Fin 8)) (fun b => by match b with | ⟨0, _⟩ => rfl | ⟨1, _⟩ => rfl | ⟨2, _⟩ => rfl)]
  rw [shapeCast_apply _ _ (ix3 a u (⟨w.val / 64, by omega⟩ : Fin 8)) (ix2 a (⟨8 * u.val + w.val / 64, by omega⟩ : Fin 64)) (by
    rw [Shape.rowMajor_val_two, Shape.rowMajor_val_three]
    show a.val * 64 + (8 * u.val + w.val / 64) = (a.val * 8 + u.val) * 8 + w.val / 64; omega)]
  rw [takeRow_apply _ _ idxW_lt a (⟨8 * u.val + w.val / 64, by omega⟩ : Fin 64)
    (⟨(a.val + 8 * u.val + w.val / 64) % 64, Nat.mod_lt _ (by decide)⟩ : Fin 64) (by
      rw [idxW_apply, BitVec.toNat_ofNat]
      show (a.val + (8 * u.val + w.val / 64)) % 64 % 2 ^ 32 = (a.val + 8 * u.val + w.val / 64) % 64; omega)]
  rw [shapeCast_apply _ _ (ix2 a (⟨(a.val + 8 * u.val + w.val / 64) % 64, Nat.mod_lt _ (by decide)⟩ : Fin 64))
    (ix6 (0 : Fin 1) (0 : Fin 1) a (⟨(a.val + 8 * u.val + w.val / 64) % 64, Nat.mod_lt _ (by decide)⟩ : Fin 64) (0 : Fin 1) (0 : Fin 1)) (by
    rw [Shape.rowMajor_val_six, Shape.rowMajor_val_two]
    show ((((0 * 1 + 0) * 64 + a.val) * 64 + (a.val + 8 * u.val + w.val / 64) % 64) * 1 + 0) * 1 + 0
      = a.val * 64 + (a.val + 8 * u.val + w.val / 64) % 64
    omega)]
  rfl

/-- THE PREPARED POSITIONAL ARRAY: what the region finds in `main_v20` is the specification's `Bias` of the positional argument. -/
theorem bias_eq (m : (ℓ : Loc nD τ sig) → Buf (Elt Ideal) ℓ) (c : Dev nD) :
    (V m c main_v20 : S64x8x512.Idx → EReal) = Cert.CrossPatch.Bias (m ((c : Thread nD τ).loc main_arg1)) := by
  rw [show (V m c main_v20 : S64x8x512.Idx → EReal) = biasTerm (m ((c : Thread nD τ).loc main_arg1)) from V_main_v20 m c]
  funext j
  obtain ⟨a, u, w, rfl⟩ : ∃ a u w, j = ix3 a u w := ⟨j 0, j 1, j 2, eq_ix3 j⟩
  exact biasTerm_apply _ a u w

end Cert.KernelIdeal.HostValue

end
-- ==== Proof.KernelBody.lean ====
/-
  What one run of the kernel body leaves in the output block, read index by index at the extended reals, is the
  specification's `Gblk` of the image block and the positional block, for the point's channel group.

  The run leaves 64 pieces, one per local channel `lc` and output row band `up`, each a `[1, 1, 64, 512]` rectangle at
  `[0, lc, 64 up, 0]` of the output block; they tile it. The piece of `(lc, up)` holds, at row `r` and column `w`,

    x0[0, lc, 64 ((a + up) mod 8) + r, 64 lc + w] + x1[lc, up, w]                    for w < 512 - 64 lc,
    x0[0, lc, 64 ((a + up + 1) mod 8) + r, w - (512 - 64 lc)] + x1[lc, up, w]        from there on

  (two loaded row bands, the first one's tail columns set before the second one's head columns, plus the positional
  row broadcast over the 64 rows), `a` the point's channel group. Below: the layout operations of a payload read at
  an index given by coordinates; the row band's first row `64 ((a + k) mod 8)` as the kernel's word arithmetic
  computes it, for the eight channel groups and `k = 0 … 8`; the specification's source row and column in closed
  form on either side of the column split; then each piece compared with the specification coordinate by coordinate.
-/
import proofs.«426089_j48120813584595_3_alg».proof.Proof.Gen.KernelIdeal.Frame
import proofs.«426089_j48120813584595_3_alg».proof.Proof.Spec
import Idealize.ShloMosaic.Lib.Pipeline.Value
import Idealize.ShloMosaic.Lib.ValueIdx
import Idealize.ShloMosaic.Lib.ValueLayout
import Idealize.ShloMosaic.Lib.WholeRead

set_option maxRecDepth 16384

noncomputable section

namespace Cert.KernelIdeal.BodyValue

open Cert.KernelIdeal Cert.KernelIdeal.Gen Idealize.ShloMosaic Idealize.ShloMosaic.TcCoe Idealize.SL.Sem Idealize.ShloMosaic.ValueIdx
open Idealize.ShloMosaic.Tactic

/-! ## Layout operations of the body read at an index given by coordinates -/

section Layout
variable {α : Type}

/-- A `[1, 1, a, b]` array viewed `[a, b]` reads, at `(i, j)`, the operand at `(0, 0, i, j)`. -/
theorem cast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array viewed `[1, 1, a, b]` reads, at `(u, v, i, j)`, the operand at `(i, j)`. -/
theorem cast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A `[1, 1, a]` array viewed `[a]` reads, at `i`, the operand at `(0, 0, i)`. -/
theorem cast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- Two matrices of `n` rows laid side by side have their widths' sum as width. -/
theorem concat_cols_width {n a b c : ℕ}
    (h : Shape.Concatenates [⟨2, ![n, a]⟩, ⟨2, ![n, b]⟩] ⟨2, ![n, c]⟩ 1) : a + b = c := by
  have e := h.2.2
  simpa using e

/-- Two matrices laid side by side read, at `(r, w)`, the left one at `(r, w)` when `w` is below its width and the
    right one at `(r, w - a)` otherwise. -/
theorem concat_cols_apply {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (w : Fin c) :
    concatenate ⟨2, ![n, c]⟩ 1 [⟨⟨2, ![n, a]⟩, x₁⟩, ⟨⟨2, ![n, b]⟩, x₂⟩] h (ix2 r w)
      = if hw : w.val < a then x₁ (ix2 r ⟨w.val, hw⟩)
        else x₂ (ix2 r ⟨w.val - a, by have := concat_cols_width h; have := w.isLt; omega⟩) := by
  split
  · next hw =>
    exact concatenate_pair_apply_left 1 x₁ x₂ h (ix2 r w) rfl (ix2 r ⟨w.val, hw⟩) (fun d => by
      match d with
      | ⟨0, _⟩ => rfl
      | ⟨1, _⟩ => rfl)
  · next hw =>
    exact concatenate_pair_apply_right 1 x₁ x₂ h (ix2 r w) rfl rfl
      (ix2 r ⟨w.val - a, by have := concat_cols_width h; have := w.isLt; omega⟩)
      (fun d hd => by
        match d, hd with
        | ⟨0, _⟩, _ => rfl
        | ⟨1, _⟩, hd => exact absurd rfl hd)
      (by show (w.val - a) + a = w.val; omega)

/-- A statement about every index of a `[1, 1, 64, 512]` piece follows from it at every row and column: the two unit
    coordinates are zero. -/
theorem forall_piece_idx {P : (⟨4, ![1, 1, 64, 512]⟩ : Shape).Idx → Prop}
    (h : ∀ (r : Fin 64) (w : Fin 512), P (ix4 (0 : Fin 1) (0 : Fin 1) r w)) : ∀ x, P x := fun x => by
  have e : x = ix4 (0 : Fin 1) (0 : Fin 1) (x 2) (x 3) := by
    funext d
    match d with
    | ⟨0, _⟩ => exact Fin.ext (by have h0 : (x 0).val < 1 := (x 0).isLt; show (x 0).val = 0; omega)
    | ⟨1, _⟩ => exact Fin.ext (by have h1 : (x 1).val < 1 := (x 1).isLt; show (x 1).val = 0; omega)
    | ⟨2, _⟩ => rfl
    | ⟨3, _⟩ => rfl
  rw [e]; exact h _ _

theorem ix4_0 {n0 n1 n2 n3 : ℕ} (a : Fin n0) (b : Fin n1) (c : Fin n2) (d : Fin n3) : ix4 a b c d 0 = a := rfl
theorem ix4_1 {n0 n1 n2 n3 : ℕ} (a : Fin n0) (b : Fin n1) (c : Fin n2) (d : Fin n3) : ix4 a b c d 1 = b := rfl
theorem ix4_2 {n0 n1 n2 n3 : ℕ} (a : Fin n0) (b : Fin n1) (c : Fin n2) (d : Fin n3) : ix4 a b c d 2 = c := rfl
theorem ix4_3 {n0 n1 n2 n3 : ℕ} (a : Fin n0) (b : Fin n1) (c : Fin n2) (d : Fin n3) : ix4 a b c d 3 = d := rfl
theorem ix3_0 {n0 n1 n2 : ℕ} (a : Fin n0) (b : Fin n1) (c : Fin n2) : ix3 a b c 0 = a := rfl
theorem ix3_1 {n0 n1 n2 : ℕ} (a : Fin n0) (b : Fin n1) (c : Fin n2) : ix3 a b c 1 = b := rfl
theorem ix3_2 {n0 n1 n2 : ℕ} (a : Fin n0) (b : Fin n1) (c : Fin n2) : ix3 a b c 2 = c := rfl

end Layout

/-! ## The row band's first row, as the kernel computes it -/

/-- The kernel's word arithmetic for the first row of row band `(a + k) mod 8`: the signed remainder by 8, made
    non-negative, times 64. -/
def bandWord (a k : BitVec 32) : BitVec 32 :=
  let v0 : BitVec 32 := Scalar.addi a k
  let v2 : BitVec 32 := Scalar.select (Scalar.cmpi .eq 8#32 0#32) 1#32 8#32
  let v3 : BitVec 32 := Scalar.remsi v0 v2
  let v8 : BitVec 1 := Scalar.andi (Scalar.xori (Scalar.cmpi .slt v3 0#32) (Scalar.cmpi .slt v2 0#32)) (Scalar.cmpi .ne v3 0#32)
  Scalar.muli (Scalar.select v8 (Scalar.addi v3 v2) v3) 64#32

/-- For a channel group `a < 8` and `k ≤ 8` no word wraps and no sign is set: the first row is `((a + k) mod 8) · 64`. -/
theorem bandWord_closed : ∀ (a : Fin 8) (k : Fin 9),
    (Scalar.indexCast (bandWord (BitVec.ofNat 32 a.val) (BitVec.ofNat 32 k.val))).toNat = (a.val + k.val) % 8 * 64 := by
  decide +kernel

/-! ## The specification's source row and column in closed form

For local channel `lc` the columns below `512 - 64 lc` come from the row band `(a + up) mod 8` (no carry into the row
band), shifted `64 lc` to the right; the columns from there on come from the next row band, `(a + up + 1) mod 8`,
shifted `512 - 64 lc` to the left. -/

section SourceArith
open Cert.CrossPatch

/-- Columns without carry: the source row is in band `(a + k) mod 8`, where `R0 = 64 k` is the output band's first row. -/
theorem row_left (a lc k R0 r w : ℕ) (hR : R0 = 64 * k) (hlc : lc < 8) (hr : r < 64) (hw : w < 512 - 64 * lc) :
    (a + k) % 8 * 64 + r = blkRow a lc (R0 + r) w := by
  subst hR; unfold blkRow; omega

/-- Columns with carry: the source row is in the band after the output's, `R0 + 64 = 64 k`. -/
theorem row_right (a lc k R0 r w : ℕ) (hR : R0 + 64 = 64 * k) (hlc : lc < 8) (hr : r < 64) (hw : 512 - 64 * lc ≤ w)
    (hw' : w < 512) : (a + k) % 8 * 64 + r = blkRow a lc (R0 + r) w := by
  unfold blkRow; omega

/-- The same two for the first output band, where the output row is `r` itself. -/
theorem row_left0 (a lc r w : ℕ) (hlc : lc < 8) (hr : r < 64) (hw : w < 512 - 64 * lc) :
    a % 8 * 64 + r = blkRow a lc r w := by
  unfold blkRow; omega

theorem row_right0 (a lc r w : ℕ) (hlc : lc < 8) (hr : r < 64) (hw : 512 - 64 * lc ≤ w) (hw' : w < 512) :
    (a + 1) % 8 * 64 + r = blkRow a lc r w := by
  unfold blkRow; omega

/-- Columns without carry sit `C0 = 64 lc` to the right in the source. -/
theorem col_left (lc C0 w : ℕ) (hC : C0 = 64 * lc) (hlc : lc < 8) (hw : w < 512 - 64 * lc) : C0 + w = blkCol lc w := by
  subst hC; unfold blkCol; omega

/-- Columns with carry sit `T = 512 - 64 lc` to the left. -/
theorem col_right (lc T w : ℕ) (hT : T + 64 * lc = 512) (hlc : lc < 8) (hw : T ≤ w) (hw' : w < 512) :
    w - T = blkCol lc w := by
  unfold blkCol; omega

/-- Local channel 0 keeps its columns. -/
theorem col_zero (w : ℕ) (hw : w < 512) : w = blkCol 0 w := by
  unfold blkCol; omega

/-- The output row `R0 + r` with `R0 = 64 k`, `r < 64` is in band `k`. -/
theorem band_of_row (k R0 r : ℕ) (hR : R0 = 64 * k) (hr : r < 64) : k = (R0 + r) / 64 := by
  subst hR; omega

theorem band_zero (r : ℕ) (hr : r < 64) : 0 = r / 64 := by omega

end SourceArith

/-! ## The loads' offsets, coordinate by coordinate -/

/-- For channel group `(i 1) < 8` and a word `k ≤ 8`, the band's first row is `(((i 1) + k) mod 8) · 64`. -/
theorem bandRow (i : grid0.Coords) (k : BitVec 32) (hk : k.toNat ≤ 8) :
    (Scalar.indexCast (bandWord (BitVec.ofNat 32 (i 1).val) k)).toNat = ((i 1).val + k.toNat) % 8 * 64 := by
  have h := bandWord_closed ⟨(i 1).val, (i 1).isLt⟩ ⟨k.toNat, by omega⟩
  rw [show BitVec.ofNat 32 k.toNat = k from by simp] at h
  exact h

theorem k0_off1_0 (i : grid0.Coords) (k : BitVec 32) : k0_off1 i k 0 = 0 := rfl
theorem k0_off1_1 (i : grid0.Coords) (k : BitVec 32) : k0_off1 i k 1 = 0 := rfl
theorem k0_off1_2 (i : grid0.Coords) (k : BitVec 32) (hk : k.toNat ≤ 8) :
    k0_off1 i k 2 = ((i 1).val + k.toNat) % 8 * 64 := bandRow i k hk
theorem k0_off1_3 (i : grid0.Coords) (k : BitVec 32) : k0_off1 i k 3 = 0 := rfl

theorem k0_off2_0 (i : grid0.Coords) (k : BitVec 32) : k0_off2 i k 0 = 0 := rfl
theorem k0_off2_1 (i : grid0.Coords) (k : BitVec 32) : k0_off2 i k 1 = 1 := rfl
theorem k0_off2_2 (i : grid0.Coords) (k : BitVec 32) (hk : k.toNat ≤ 8) :
    k0_off2 i k 2 = ((i 1).val + k.toNat) % 8 * 64 := bandRow i k hk
theorem k0_off2_3 (i : grid0.Coords) (k : BitVec 32) : k0_off2 i k 3 = 0 := rfl

theorem k0_off3_0 (i : grid0.Coords) (k : BitVec 32) : k0_off3 i k 0 = 0 := rfl
theorem k0_off3_1 (i : grid0.Coords) (k : BitVec 32) : k0_off3 i k 1 = 2 := rfl
theorem k0_off3_2 (i : grid0.Coords) (k : BitVec 32) (hk : k.toNat ≤ 8) :
    k0_off3 i k 2 = ((i 1).val + k.toNat) % 8 * 64 := bandRow i k hk
theorem k0_off3_3 (i : grid0.Coords) (k : BitVec 32) : k0_off3 i k 3 = 0 := rfl

theorem k0_off4_0 (i : grid0.Coords) (k : BitVec 32) : k0_off4 i k 0 = 0 := rfl
theorem k0_off4_1 (i : grid0.Coords) (k : BitVec 32) : k0_off4 i k 1 = 3 := rfl
theorem k0_off4_2 (i : grid0.Coords) (k : BitVec 32) (hk : k.toNat ≤ 8) :
    k0_off4 i k 2 = ((i 1).val + k.toNat) % 8 * 64 := bandRow i k hk
theorem k0_off4_3 (i : grid0.Coords) (k : BitVec 32) : k0_off4 i k 3 = 0 := rfl

theorem k0_off5_0 (i : grid0.Coords) (k : BitVec 32) : k0_off5 i k 0 = 0 := rfl
theorem k0_off5_1 (i : grid0.Coords) (k : BitVec 32) : k0_off5 i k 1 = 4 := rfl
theorem k0_off5_2 (i : grid0.Coords) (k : BitVec 32) (hk : k.toNat ≤ 8) :
    k0_off5 i k 2 = ((i 1).val + k.toNat) % 8 * 64 := bandRow i k hk
theorem k0_off5_3 (i : grid0.Coords) (k : BitVec 32) : k0_off5 i k 3 = 0 := rfl

theorem k0_off6_0 (i : grid0.Coords) (k : BitVec 32) : k0_off6 i k 0 = 0 := rfl
theorem k0_off6_1 (i : grid0.Coords) (k : BitVec 32) : k0_off6 i k 1 = 5 := rfl
theorem k0_off6_2 (i : grid0.Coords) (k : BitVec 32) (hk : k.toNat ≤ 8) :
    k0_off6 i k 2 = ((i 1).val + k.toNat) % 8 * 64 := bandRow i k hk
theorem k0_off6_3 (i : grid0.Coords) (k : BitVec 32) : k0_off6 i k 3 = 0 := rfl

theorem k0_off7_0 (i : grid0.Coords) (k : BitVec 32) : k0_off7 i k 0 = 0 := rfl
theorem k0_off7_1 (i : grid0.Coords) (k : BitVec 32) : k0_off7 i k 1 = 6 := rfl
theorem k0_off7_2 (i : grid0.Coords) (k : BitVec 32) (hk : k.toNat ≤ 8) :
    k0_off7 i k 2 = ((i 1).val + k.toNat) % 8 * 64 := bandRow i k hk
theorem k0_off7_3 (i : grid0.Coords) (k : BitVec 32) : k0_off7 i k 3 = 0 := rfl

theorem k0_off8_0 (i : grid0.Coords) (k : BitVec 32) : k0_off8 i k 0 = 0 := rfl
theorem k0_off8_1 (i : grid0.Coords) (k : BitVec 32) : k0_off8 i k 1 = 7 := rfl
theorem k0_off8_2 (i : grid0.Coords) (k : BitVec 32) (hk : k.toNat ≤ 8) :
    k0_off8 i k 2 = ((i 1).val + k.toNat) % 8 * 64 := bandRow i k hk
theorem k0_off8_3 (i : grid0.Coords) (k : BitVec 32) : k0_off8 i k 3 = 0 := rfl

attribute [local irreducible] Cert.CrossPatch.blkRow Cert.CrossPatch.blkCol

set_option hygiene false in
/-- A coordinate of a load's or a store's index written out: the rectangle's offset plus the coordinate inside it. -/
macro "coord_simp" : tactic => `(tactic| (
  simp (disch := decide) only [LoadRect.idx_apply, Rect.emb_apply, Rect.off_unit, Rect.stride_unit, Nat.one_mul, Matrix.cons_val,
    ix4_0, ix4_1, ix4_2, ix4_3, ix3_0, ix3_1, ix3_2, Fin.val_mk, Fin.val_zero, BitVec.reduceToNat, Nat.zero_add, Nat.add_zero,
    k0_off1_0, k0_off1_1, k0_off1_2, k0_off1_3, k0_off2_0, k0_off2_1, k0_off2_2, k0_off2_3, k0_off3_0, k0_off3_1, k0_off3_2, k0_off3_3, k0_off4_0, k0_off4_1, k0_off4_2, k0_off4_3, k0_off5_0, k0_off5_1, k0_off5_2, k0_off5_3, k0_off6_0, k0_off6_1, k0_off6_2, k0_off6_3, k0_off7_0, k0_off7_1, k0_off7_2, k0_off7_3, k0_off8_0, k0_off8_1, k0_off8_2, k0_off8_3]))

set_option hygiene false in
/-- The six coordinate equations of one piece on one side of the column split: the image entry's channel, row and
    column, the positional entry's channel, row band and column. -/
macro "piece_coords" : tactic => `(tactic| (
  refine congrArg₂ (· + ·) (congrArg x0 (Cert.CrossPatch.eq_blkSrc _ _ _ ?_ ?_ ?_)) (congrArg x1 (Cert.CrossPatch.eq_blkBias _ _ ?_ ?_ ?_))
  · coord_simp
  · coord_simp
    first
      | exact row_left0 _ _ _ _ (by omega) hr (by omega)
      | exact row_right0 _ _ _ _ (by omega) hr (by omega) hw
      | exact row_left _ _ _ _ _ _ (by omega) (by omega) hr (by omega)
      | exact row_right _ _ _ _ _ _ (by omega) (by omega) hr (by omega) hw
  · coord_simp
    first
      | exact col_zero _ hw
      | exact col_left _ _ _ (by omega) (by omega) (by omega)
      | exact col_right _ _ _ (by omega) (by omega) (by omega) hw
  · coord_simp
  · coord_simp
    first
      | exact band_zero _ hr
      | exact band_of_row _ _ _ (by omega) hr
  · coord_simp))

set_option hygiene false in
/-- One stored piece at a row and a column: the payload's operations pushed to the loads, the loads read as the
    blocks' entries, then the entries' indices compared coordinate by coordinate with the specification's. -/
macro "piece_value" : tactic => `(tactic| (
  refine forall_piece_idx fun r w => ?_
  have hi : (i 1).val < 8 := (i 1).isLt
  have hr : r.val < 64 := r.isLt
  have hw : w.val < 512 := w.isLt
  simp (disch := decide) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, cast_11ab_ab_apply, cast_ab_11ab_apply, cast_11a_a_apply, shapeCast_a_1a_apply,
    broadcastTo_1b_ab_apply, addf_apply, slice2_axis1_eq, concat_cols_apply, Memref.IsWhole.readAt_unread]
  unfold Cert.CrossPatch.Gblk
  first
    | (split <;> piece_coords)
    | piece_coords))

/-! ## Every stored piece is the specification's block there -/

set_option maxHeartbeats 16000000 in
/-- Each of the 64 pieces the run leaves — the `[1, 1, 64, 512]` piece of local channel `lc` and output row band `up` —
    is, at every index inside it, the specification's block at the index the piece's rectangle places it. -/
theorem pieces_eq (c : Dev nD) (i : grid0.Coords) (arg2 : Memref sig .tc .vmem S1x8x512x512 .f32) (harg2 : arg2.IsWhole)
    (arg3 : Memref sig .tc .vmem S8x8x512 .f32) (harg3 : arg3.IsWhole) (arg4 : Memref sig .tc .vmem S1x8x512x512 .f32) (harg4 : arg4.IsWhole)
    (x0 : Vec Ideal S1x8x512x512 .f32) (x1 : Vec Ideal S8x8x512 .f32) :
    ∀ p ∈ (kernelRun0_A (F := Ideal) c i arg2 harg2 arg3 harg3 arg4 harg4 x0 x1).1,
      ∀ x, p.2 x = Cert.CrossPatch.Gblk (i 1).val x0 x1 (p.1.emb x) := by
  unfold kernelRun0_A
  dsimp only
  sl_unfold_run_names
  repeat' refine List.forall_mem_cons.2 ⟨?_, ?_⟩
  all_goals first
    | piece_value
    | (intro p hp; cases hp)

/-- What one run of the body leaves in the output block is the specification's block of the image block and the
    positional block, for the point's channel group: the pieces cover the block and each is the specification's. -/
theorem out_eq (c : Dev nD) (i : grid0.Coords) (arg2 : Memref sig .tc .vmem S1x8x512x512 .f32) (harg2 : arg2.IsWhole)
    (arg3 : Memref sig .tc .vmem S8x8x512 .f32) (harg3 : arg3.IsWhole) (arg4 : Memref sig .tc .vmem S1x8x512x512 .f32) (harg4 : arg4.IsWhole)
    (x0 : Vec Ideal S1x8x512x512 .f32) (x1 : Vec Ideal S8x8x512 .f32) :
    out0_A_2 (F := Ideal) c i arg2 harg2 arg3 harg3 arg4 harg4 x0 x1 = Cert.CrossPatch.Gblk (i 1).val x0 x1 := by
  funext y
  unfold out0_A_2
  rw [View.read_writes_eq_canon _ _ _ (cover0_A_2 c i arg2 harg2 arg3 harg3 arg4 harg4 x0 x1)]
  exact View.canon_apply_of_pieces (Cert.CrossPatch.Gblk (i 1).val x0 x1) _
    (pieces_eq c i arg2 harg2 arg3 harg3 arg4 harg4 x0 x1) y (cover0_A_2 c i arg2 harg2 arg3 harg3 arg4 harg4 x0 x1 y)

end Cert.KernelIdeal.BodyValue

end
-- ==== Proof.KernelValue.lean ====
/-
  The kernel program's value: after its run the result array holds the specification `G` of the two arguments.

  At grid point `t` (batch `b`, channel group `a`) the body leaves `Gblk a` of the point's image block and positional
  block in the output block. The image block is rows [b, 8a … 8a+7] of the image, the positional block rows
  [8a … 8a+7] of the prepared positional array `Bias pos`, so that is block `t` of `G x pos`: for channel
  `c = 8a + lc` the block's source row and column are the image's, and `Bias pos` at [c, row band, column] is
  `pos[c, patch]`. The 32 blocks tile the result array, so the array ends at `G x pos`.
-/
import proofs.«426089_j48120813584595_3_alg».proof.Proof.Gen.KernelIdeal.Value
import proofs.«426089_j48120813584595_3_alg».proof.Proof.Spec
import proofs.«426089_j48120813584595_3_alg».proof.Proof.KernelHost
import proofs.«426089_j48120813584595_3_alg».proof.Proof.KernelBody

noncomputable section

namespace Cert.KernelIdeal.KValue

open Cert.KernelIdeal Cert.KernelIdeal.Gen Cert.KernelIdeal.Value Idealize.ShloMosaic Idealize.ShloMosaic.TcCoe Idealize.SL.Sem
open Idealize.ShloMosaic.Pipeline (Dat)
open Cert.CrossPatch

variable (m : (ℓ : Loc nD τ sig) → Buf (Elt Ideal) ℓ) (ρ : Dev nD → PrngReg)

/-- The printed index maps over the grid: the image window and the output window sit at block (batch, channel group, 0, 0),
    the positional window at block (channel group, 0, 0), and the channel group is the point's second coordinate. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 3) = win0_2.index t (1 : Fin 4) ∧ win0_1.index t (1 : Fin 3) = 0 ∧ win0_1.index t (2 : Fin 3) = 0
    ∧ win0_2.index t (1 : Fin 4) = (grid0.coords t 1).val
    ∧ win0_2.index t (0 : Fin 4) < 4 ∧ win0_2.index t (1 : Fin 4) < 8 :=
  (by decide +kernel : ∀ t : Fin grid0.N, _)

/-- Every (batch, channel group) is some point's output block. -/
theorem idx_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-- The output block's element `y` at point `t` sits in the result array at batch `index 0`, channel `8 a + lc`, its own row and column. -/
theorem emb2_val (t : Fin cfg0.N) (y : S1x8x512x512.Idx) :
    ((((cfg0.win 2).blk t).view.emb y) 0).val = win0_2.index t (0 : Fin 4)
    ∧ ((((cfg0.win 2).blk t).view.emb y) 1).val = 8 * (grid0.coords t 1).val + (y 1).val
    ∧ ((((cfg0.win 2).blk t).view.emb y) 2).val = (y 2).val
    ∧ ((((cfg0.win 2).blk t).view.emb y) 3).val = (y 3).val := by
  obtain ⟨e0, e1, e2, e3, e4, e5, e6, e7, e8, e9, e10, e11⟩ := idx_facts t
  have hy0 : (y 0).val < 1 := (y 0).isLt
  refine ⟨?_, ?_, ?_, ?_⟩
  · show win0_2.index t (0 : Fin 4) * 1 + 1 * (y 0).val = _; omega
  · show win0_2.index t (1 : Fin 4) * 8 + 1 * (y 1).val = _; omega
  · show win0_2.index t (2 : Fin 4) * 512 + 1 * (y 2).val = _; omega
  · show win0_2.index t (3 : Fin 4) * 512 + 1 * (y 3).val = _; omega

/-- The image block at point `t`, as a function on the block's indices. -/
abbrev xblk (c : Dev nD) (t : Fin cfg0.N) : S1x8x512x512.Idx → EReal := iblk m c 0 t
/-- The positional block at point `t`, as a function on the block's indices. -/
abbrev bblk (c : Dev nD) (t : Fin cfg0.N) : S8x8x512.Idx → EReal := iblk m c 1 t

/-- The image block's element at the block's source index is the image's element at the source index. -/
theorem xblk_src (c : Dev nD) (t : Fin cfg0.N) (y : S1x8x512x512.Idx) :
    xblk m c t (blkSrc (grid0.coords t 1).val y)
      = m ((c : Thread nD τ).loc main_arg0) (srcIdx (((cfg0.win 2).blk t).view.emb y)) := by
  obtain ⟨e0, e1, e2, e3, e4, e5, e6, e7, e8, e9, e10, e11⟩ := idx_facts t
  obtain ⟨h0, h1, h2, h3⟩ := emb2_val t y
  have hy0 : (y 0).val < 1 := (y 0).isLt
  have hy1 : (y 1).val < 8 := (y 1).isLt
  have hy3 : (y 3).val < 512 := (y 3).isLt
  show V m c main_arg0 (((cfg0.win 0).blk t).view.emb (blkSrc (grid0.coords t 1).val y)) = _
  rw [V_main_arg0]
  refine congrArg _ (eq_srcIdx _ _ ?_ ?_ ?_ ?_)
  · rw [h0]
    show win0_0.index t (0 : Fin 4) * 1 + 1 * (y 0).val = _; omega
  · rw [h1]
    show win0_0.index t (1 : Fin 4) * 8 + 1 * (y 1).val = _; omega
  · rw [h1, h2, h3, srcRow_eq_blkRow _ _ _ _ hy1 hy3]
    show win0_0.index t (2 : Fin 4) * 512 + 1 * blkRow (grid0.coords t 1).val (y 1).val (y 2).val (y 3).val = _; omega
  · rw [h1, h2, h3, srcCol_eq_blkCol _ _ _ _ hy1 hy3]
    show win0_0.index t (3 : Fin 4) * 512 + 1 * blkCol (y 1).val (y 3).val = _; omega

/-- The positional block's element for the output element `y` is the positional value of the source patch. -/
theorem bblk_bias (c : Dev nD) (t : Fin cfg0.N) (y : S1x8x512x512.Idx) :
    bblk m c t (blkBias y)
      = m ((c : Thread nD τ).loc main_arg1)
          (posIdx ((((cfg0.win 2).blk t).view.emb y) 1)
            ⟨patch ((((cfg0.win 2).blk t).view.emb y) 1).val ((((cfg0.win 2).blk t).view.emb y) 2).val ((((cfg0.win 2).blk t).view.emb y) 3).val, patch_lt _ _ _⟩) := by
  obtain ⟨e0, e1, e2, e3, e4, e5, e6, e7, e8, e9, e10, e11⟩ := idx_facts t
  obtain ⟨h0, h1, h2, h3⟩ := emb2_val t y
  show V m c main_v20 (((cfg0.win 1).blk t).view.emb (blkBias y)) = _
  rw [HostValue.bias_eq]
  have k0 : ((((cfg0.win 1).blk t).view.emb (blkBias y)) 0).val = 8 * (grid0.coords t 1).val + (y 1).val := by
    show win0_1.index t (0 : Fin 3) * 8 + 1 * (y 1).val = _; omega
  have k1 : ((((cfg0.win 1).blk t).view.emb (blkBias y)) 1).val = (y 2).val / 64 := by
    show win0_1.index t (1 : Fin 3) * 8 + 1 * ((y 2).val / 64) = _; omega
  have k2 : ((((cfg0.win 1).blk t).view.emb (blkBias y)) 2).val = (y 3).val := by
    show win0_1.index t (2 : Fin 3) * 512 + 1 * (y 3).val = _; omega
  unfold Bias
  refine congrArg _ (eq_posIdx _ _ _ ?_ ?_)
  · show ((((cfg0.win 1).blk t).view.emb (blkBias y)) 0).val = _
    rw [k0, h1]
  · show (((((cfg0.win 1).blk t).view.emb (blkBias y)) 0).val + 8 * ((((cfg0.win 1).blk t).view.emb (blkBias y)) 1).val
        + ((((cfg0.win 1).blk t).view.emb (blkBias y)) 2).val / 64) % 64 = patch _ _ _
    rw [k0, k1, k2, h1, h2, h3]
    rfl

/-- WHAT POINT `t` WRITES BACK is block `t` of `G` of the two arguments. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [flushed2_A]
  rw [BodyValue.out_eq c (grid0.coords t) (ms0_0 t) (hs0_0 t) (ms0_1 t) (hs0_1 t) (ms0_2 t) (hs0_2 t) (iblk m c 0 t) (iblk m c 1 t)]
  funext y
  show xblk m c t (blkSrc (grid0.coords t 1).val y) + bblk m c t (blkBias y)
    = G (m ((c : Thread nD τ).loc main_arg0)) (m ((c : Thread nD τ).loc main_arg1)) (((cfg0.win 2).blk t).view.emb y)
  rw [xblk_src m c t y, bblk_bias m c t y]
  rfl

/-- An index of the array is in point `t`'s block iff each coordinate is in the block's range on its axis. -/
theorem mem_blk (t : Fin cfg0.N) (i : S4x64x512x512.Idx) :
    i ∈ ((cfg0.win 2).blk t).view.set ↔ ∀ a : Fin 4, win0_2.index t a * S1x8x512x512.size a ≤ (i a).val ∧ (i a).val < win0_2.index t a * S1x8x512x512.size a + S1x8x512x512.size a := by
  show i ∈ ((View.whole main_v21).slice (win0_2.rect t)).set ↔ _
  rw [View.set_slice_whole, Rect.mem_set_unit]
  exact Iff.rfl

/-- The 32 output blocks tile the result array. -/
theorem cover (i : S4x64x512x512.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 512 := (i 2).isLt
  have hi3 : (i 3).val < 512 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE ARRAY after the run: `G` of the two arguments. -/
theorem final (c : Dev nD) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- The kernel program's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v21) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KValue

end
-- ==== Proof.RefTerm.lean ====
/-
  The reference's result as one term of its two arguments: each host operation of the reference, in order, as a
  definition over the values before it.

  The image is cut into its 64 patches (`patches`), the positional table is broadcast over batch and patch
  elements (`posAll`) and added; a table of index pairs (`pairTable`: for channel `c` and output patch `q` the
  pair (c, (c + q) mod 64), the remainder spelt out as the host computes it) drives a gather that moves patch
  `(c + q) mod 64` of channel `c` to output patch `q`; the patches are laid back into an image (`refTerm`).
-/
import proofs.«426089_j48120813584595_3_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- The image by patches: [batch, channel, patch, row in patch, column in patch]. -/
def patches (x : Vec F S4x64x512x512 .f32) : Vec F S4x64x64x64x64 .f32 :=
  transpose S4x64x64x64x64 [0, 1, 4, 2, 3]
    (shapeCast S4x64x64x64x64
      (transpose S4x64x64x64x8x8 [0, 1, 3, 5, 2, 4]
        (shapeCast S4x64x8x64x8x64 x shapeCasts_S4x64x512x512_S4x64x8x64x8x64)
        transposes_S4x64x8x64x8x64_S4x64x64x64x8x8_0_1_3_5_2_4)
      shapeCasts_S4x64x64x64x8x8_S4x64x64x64x64)
    transposes_S4x64x64x64x64_S4x64x64x64x64_0_1_4_2_3

/-- The positional table over batch and the elements of a patch: entry [b, c, m, i, j] is `pos[c, m]`. -/
def posAll (p : Vec F S1x1x64x64x1x1 .f32) : Vec F S4x64x64x64x64 .f32 :=
  broadcastInDim S4x64x64x64x64 ![0, 1, 2, 3, 4] bcast_S1x64x64x1x1_S4x64x64x64x64_0_1_2_3_4
    (broadcastInDim S1x64x64x1x1 ![1, 2, 3, 4] bcast_S64x64x1x1_S1x64x64x1x1_1_2_3_4
      (shapeCast S64x64x1x1 p shapeCasts_S1x1x64x64x1x1_S64x64x1x1))

/-- The numbers 0 … 63. -/
def iota64 : IVec S64 32 := iotaInDim S64 32 0

/-- Entry [c, q] is `c + q`. -/
def sumCQ : IVec S64x64 32 :=
  addi (broadcastInDim S64x64 ![0, 1] bcast_S64x1_S64x64_0_1 (broadcastInDim S64x1 ![0] bcast_S64_S64x1_0 iota64))
    (broadcastInDim S64x64 ![0, 1] bcast_S1x64_S64x64_0_1 (broadcastInDim S1x64 ![1] bcast_S64_S1x64_1 iota64))

/-- The divisor the host's remainder uses: 64, or 1 were it 0. -/
def divisor : IVec S_ 32 :=
  select (cmpi .eq (id (constantI S_ 32 64#32)) (constantI S_ 32 0#32)) (constantI S_ 32 1#32) (id (constantI S_ 32 64#32))

/-- The truncated remainder of `c + q` by the divisor. -/
def truncRem : IVec S64x64 32 := Host.remsi sumCQ (broadcastInDim S64x64 ![] bcast_S_S64x64 divisor)

/-- The host's floored remainder of `c + q` by 64: the truncated one, the divisor added where the signs differ and it is not zero. -/
def remCQ : IVec S64x64 32 :=
  select
    (andi
      (cmpi .ne (cmpi .slt truncRem (broadcastInDim S64x64 ![] bcast_S_S64x64 (constantI S_ 32 0#32)))
        (broadcastInDim S64x64 ![] bcast_S_S64x64 (cmpi .slt divisor (constantI S_ 32 0#32))))
      (cmpi .ne truncRem (broadcastInDim S64x64 ![] bcast_S_S64x64 (constantI S_ 32 0#32))))
    (addi truncRem (broadcastInDim S64x64 ![] bcast_S_S64x64 divisor))
    truncRem

/-- The channel numbers as a column, a negative one wrapped by 64 (the host's index normalization). -/
def chanCol : IVec S64x1 32 :=
  select
    (cmpi .slt (broadcastInDim S64x1 ![0] bcast_S64_S64x1_0 iota64) (broadcastInDim S64x1 ![] bcast_S_S64x1 (constantI S_ 32 0#32)))
    (addi (broadcastInDim S64x1 ![0] bcast_S64_S64x1_0 iota64) (broadcastInDim S64x1 ![] bcast_S_S64x1 (constantI S_ 32 64#32)))
    (broadcastInDim S64x1 ![0] bcast_S64_S64x1_0 iota64)

/-- The source patch numbers, a negative one wrapped by 64 (the host's index normalization). -/
def patchCQ : IVec S64x64 32 :=
  select
    (cmpi .slt remCQ (broadcastInDim S64x64 ![] bcast_S_S64x64 (constantI S_ 32 0#32)))
    (addi remCQ (broadcastInDim S64x64 ![] bcast_S_S64x64 (constantI S_ 32 64#32)))
    remCQ

/-- The gather's index pairs: at [c, q] the pair (channel, source patch). -/
def pairTable : IVec S64x64x2 32 :=
  concatenate S64x64x2 2
    [⟨S64x64x1, broadcastInDim S64x64x1 ![0, 1] bcast_S64x64_S64x64x1_0_1 (broadcastInDim S64x64 ![0, 1] bcast_S64x1_S64x64_0_1 chanCol)⟩,
     ⟨S64x64x1, broadcastInDim S64x64x1 ![0, 1] bcast_S64x64_S64x64x1_0_1 patchCQ⟩]
    concatenates_S64x64x1_S64x64x1_S64x64x2_d2

/-- The reference's result: patches plus positions, gathered through the pair table, laid back as an image. -/
def refTerm (x : Vec F S4x64x512x512 .f32) (p : Vec F S1x1x64x64x1x1 .f32) : Vec F S4x64x512x512 .f32 :=
  shapeCast S4x64x512x512
    (transpose S4x64x8x64x8x64 [0, 1, 4, 2, 5, 3]
      (shapeCast S4x64x64x64x8x8
        (transpose S4x64x64x64x64 [0, 1, 3, 4, 2]
          (Host.gather gather_S4x64x64x64x64_S64x64x2_S4x64x64x64x64_034_12_n_n_12_2_4116464 (addf (patches x) (posAll p)) pairTable)
          transposes_S4x64x64x64x64_S4x64x64x64x64_0_1_3_4_2)
        shapeCasts_S4x64x64x64x64_S4x64x64x64x8x8)
      transposes_S4x64x64x64x8x8_S4x64x8x64x8x64_0_1_4_2_5_3)
    shapeCasts_S4x64x8x64x8x64_S4x64x512x512

end Cert.ReferenceIdeal.RefValue

end
-- ==== Proof.RefRun.lean ====
/-
  The reference program run: every weakly fair execution of its @main terminates with the result buffer at the
  operations' composed term of the two arguments (`RefValue.refTerm`) and the arguments unchanged.

  The reference's @main is a straight line of host operations with one call, of the floored remainder, which
  itself calls a scalar select. A call executes the callee's body on the operands, so the program is the list
  `ops` of its sixty operations with the callee's twenty-one in place of the call, over the buffers the call
  names. The run of such a list leaves each buffer at the fold of the operations' results; at the result buffer
  that fold is `refTerm` of the two arguments' contents, and no operation writes an argument.
-/
import proofs.«426089_j48120813584595_3_alg».proof.Proof.RefTerm
import Idealize.ShloMosaic.Lib.StableHlo.Run

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

/-- @main's sixty operations in order: its own thirty-nine, and in place of the call of the floored remainder of
    `c + q` by 64 the callee's twenty-one over the call's buffers (the nested scalar select as one operation,
    writing the buffer the later lines read it from; the last writes the call's result buffer). -/
abbrev ops : List (HloOp τ sig (Elt F)) :=
  [ StableHlo.reshape main_arg0 main_v0 rfl shapeCasts_S4x64x512x512_S4x64x8x64x8x64,
    StableHlo.unary main_v0 main_v1 ((transpose S4x64x64x64x8x8 [0, 1, 3, 5, 2, 4] · transposes_S4x64x8x64x8x64_S4x64x64x64x8x8_0_1_3_5_2_4) : (⟨S4x64x8x64x8x64, .f32⟩ : BufTy).Contents (Elt F) → (⟨S4x64x64x64x8x8, .f32⟩ : BufTy).Contents (Elt F)),
    StableHlo.reshape main_v1 main_v2 rfl shapeCasts_S4x64x64x64x8x8_S4x64x64x64x64,
    StableHlo.unary main_v2 main_v3 ((transpose S4x64x64x64x64 [0, 1, 4, 2, 3] · transposes_S4x64x64x64x64_S4x64x64x64x64_0_1_4_2_3) : (⟨S4x64x64x64x64, .f32⟩ : BufTy).Contents (Elt F) → (⟨S4x64x64x64x64, .f32⟩ : BufTy).Contents (Elt F)),
    StableHlo.reshape main_arg1 main_v4 rfl shapeCasts_S1x1x64x64x1x1_S64x64x1x1,
    StableHlo.unary main_v4 main_v5 (broadcastInDim S1x64x64x1x1 ![1, 2, 3, 4] bcast_S64x64x1x1_S1x64x64x1x1_1_2_3_4 : (⟨S64x64x1x1, .f32⟩ : BufTy).Contents (Elt F) → (⟨S1x64x64x1x1, .f32⟩ : BufTy).Contents (Elt F)),
    StableHlo.unary main_v5 main_v6 (broadcastInDim S4x64x64x64x64 ![0, 1, 2, 3, 4] bcast_S1x64x64x1x1_S4x64x64x64x64_0_1_2_3_4 : (⟨S1x64x64x1x1, .f32⟩ : BufTy).Contents (Elt F) → (⟨S4x64x64x64x64, .f32⟩ : BufTy).Contents (Elt F)),
    StableHlo.binary main_v3 main_v6 main_v7 (addf : (⟨S4x64x64x64x64, .f32⟩ : BufTy).Contents (Elt F) → (⟨S4x64x64x64x64, .f32⟩ : BufTy).Contents (Elt F) → (⟨S4x64x64x64x64, .f32⟩ : BufTy).Contents (Elt F)),
    StableHlo.nullary main_v8 (iotaInDim S64 32 0),
    StableHlo.unary main_v8 main_v9 (broadcastInDim S64x1 ![0] bcast_S64_S64x1_0 : (⟨S64, .i32⟩ : BufTy).Contents (Elt F) → (⟨S64x1, .i32⟩ : BufTy).Contents (Elt F)),
    StableHlo.unary main_v8 main_v10 (broadcastInDim S1x64 ![1] bcast_S64_S1x64_1 : (⟨S64, .i32⟩ : BufTy).Contents (Elt F) → (⟨S1x64, .i32⟩ : BufTy).Contents (Elt F)),
    StableHlo.unary main_v9 main_v11 (broadcastInDim S64x64 ![0, 1] bcast_S64x1_S64x64_0_1 : (⟨S64x1, .i32⟩ : BufTy).Contents (Elt F) → (⟨S64x64, .i32⟩ : BufTy).Contents (Elt F)),
    StableHlo.unary main_v10 main_v12 (broadcastInDim S64x64 ![0, 1] bcast_S1x64_S64x64_0_1 : (⟨S1x64, .i32⟩ : BufTy).Contents (Elt F) → (⟨S64x64, .i32⟩ : BufTy).Contents (Elt F)),
    StableHlo.binary main_v11 main_v12 main_v13 (addi : (⟨S64x64, .i32⟩ : BufTy).Contents (Elt F) → (⟨S64x64, .i32⟩ : BufTy).Contents (Elt F) → (⟨S64x64, .i32⟩ : BufTy).Contents (Elt F)),
    StableHlo.nullary main_c (constantI S_ 32 64#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S64x64, .i32⟩) (broadcastInDim S64x64 ![] bcast_S_S64x64),
    StableHlo.TRef.binary (.of main_v13 : StableHlo.TRef sig ⟨S64x64, .i32⟩) (.of main_call0_v3 : StableHlo.TRef sig ⟨S64x64, .i32⟩) (.of main_call0_v4 : StableHlo.TRef sig ⟨S64x64, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S64x64, .i32⟩) (broadcastInDim S64x64 ![] bcast_S_S64x64),
    StableHlo.TRef.binary (.of main_call0_v4 : StableHlo.TRef sig ⟨S64x64, .i32⟩) (.of main_call0_v5 : StableHlo.TRef sig ⟨S64x64, .i32⟩) (.of main_call0_v6 : StableHlo.TRef sig ⟨S64x64, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S64x64, .i32⟩) (broadcastInDim S64x64 ![] bcast_S_S64x64),
    StableHlo.TRef.binary (.of main_call0_v4 : StableHlo.TRef sig ⟨S64x64, .i32⟩) (.of main_call0_v7 : StableHlo.TRef sig ⟨S64x64, .i32⟩) (.of main_call0_v8 : StableHlo.TRef sig ⟨S64x64, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S64x64, .i1⟩) (broadcastInDim S64x64 ![] bcast_S_S64x64),
    StableHlo.TRef.binary (.of main_call0_v8 : StableHlo.TRef sig ⟨S64x64, .i1⟩) (.of main_call0_v10 : StableHlo.TRef sig ⟨S64x64, .i1⟩) (.of main_call0_v11 : StableHlo.TRef sig ⟨S64x64, .i1⟩) (cmpi .ne),
    StableHlo.TRef.binary (.of main_call0_v11 : StableHlo.TRef sig ⟨S64x64, .i1⟩) (.of main_call0_v6 : StableHlo.TRef sig ⟨S64x64, .i1⟩) (.of main_call0_v12 : StableHlo.TRef sig ⟨S64x64, .i1⟩) andi,
    StableHlo.TRef.unary (.of main_call0_v2 : StableHlo.TRef sig ⟨S_, .i32⟩) (.of main_call0_v13 : StableHlo.TRef sig ⟨S64x64, .i32⟩) (broadcastInDim S64x64 ![] bcast_S_S64x64),
    StableHlo.TRef.binary (.of main_call0_v4 : StableHlo.TRef sig ⟨S64x64, .i32⟩) (.of main_call0_v13 : StableHlo.TRef sig ⟨S64x64, .i32⟩) (.of main_call0_v14 : StableHlo.TRef sig ⟨S64x64, .i32⟩) addi,
    StableHlo.TRef.ternary (.of main_call0_v12 : StableHlo.TRef sig ⟨S64x64, .i1⟩) (.of main_call0_v14 : StableHlo.TRef sig ⟨S64x64, .i32⟩) (.of main_call0_v4 : StableHlo.TRef sig ⟨S64x64, .i32⟩) (.of main_v14 : StableHlo.TRef sig ⟨S64x64, .i32⟩) select,
    StableHlo.unary main_v8 main_v15 (broadcastInDim S64x1 ![0] bcast_S64_S64x1_0 : (⟨S64, .i32⟩ : BufTy).Contents (Elt F) → (⟨S64x1, .i32⟩ : BufTy).Contents (Elt F)),
    StableHlo.nullary main_c_0 (constantI S_ 32 0#32),
    StableHlo.unary main_c_0 main_v16 (broadcastInDim S64x1 ![] bcast_S_S64x1 : (⟨S_, .i32⟩ : BufTy).Contents (Elt F) → (⟨S64x1, .i32⟩ : BufTy).Contents (Elt F)),
    StableHlo.binary main_v15 main_v16 main_v17 (cmpi .slt : (⟨S64x1, .i32⟩ : BufTy).Contents (Elt F) → (⟨S64x1, .i32⟩ : BufTy).Contents (Elt F) → (⟨S64x1, .i1⟩ : BufTy).Contents (Elt F)),
    StableHlo.nullary main_c_1 (constantI S_ 32 64#32),
    StableHlo.unary main_c_1 main_v18 (broadcastInDim S64x1 ![] bcast_S_S64x1 : (⟨S_, .i32⟩ : BufTy).Contents (Elt F) → (⟨S64x1, .i32⟩ : BufTy).Contents (Elt F)),
    StableHlo.binary main_v15 main_v18 main_v19 (addi : (⟨S64x1, .i32⟩ : BufTy).Contents (Elt F) → (⟨S64x1, .i32⟩ : BufTy).Contents (Elt F) → (⟨S64x1, .i32⟩ : BufTy).Contents (Elt F)),
    StableHlo.ternary main_v17 main_v19 main_v15 main_v20 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_2 (constantI S_ 32 0#32),
    StableHlo.unary main_c_2 main_v21 (broadcastInDim S64x64 ![] bcast_S_S64x64 : (⟨S_, .i32⟩ : BufTy).Contents (Elt F) → (⟨S64x64, .i32⟩ : BufTy).Contents (Elt F)),
    StableHlo.binary main_v14 main_v21 main_v22 (cmpi .slt : (⟨S64x64, .i32⟩ : BufTy).Contents (Elt F) → (⟨S64x64, .i32⟩ : BufTy).Contents (Elt F) → (⟨S64x64, .i1⟩ : BufTy).Contents (Elt F)),
    StableHlo.nullary main_c_3 (constantI S_ 32 64#32),
    StableHlo.unary main_c_3 main_v23 (broadcastInDim S64x64 ![] bcast_S_S64x64 : (⟨S_, .i32⟩ : BufTy).Contents (Elt F) → (⟨S64x64, .i32⟩ : BufTy).Contents (Elt F)),
    StableHlo.binary main_v14 main_v23 main_v24 (addi : (⟨S64x64, .i32⟩ : BufTy).Contents (Elt F) → (⟨S64x64, .i32⟩ : BufTy).Contents (Elt F) → (⟨S64x64, .i32⟩ : BufTy).Contents (Elt F)),
    StableHlo.ternary main_v22 main_v24 main_v14 main_v25 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v20 main_v26 (broadcastInDim S64x64 ![0, 1] bcast_S64x1_S64x64_0_1 : (⟨S64x1, .i32⟩ : BufTy).Contents (Elt F) → (⟨S64x64, .i32⟩ : BufTy).Contents (Elt F)),
    StableHlo.unary main_v26 main_v27 (broadcastInDim S64x64x1 ![0, 1] bcast_S64x64_S64x64x1_0_1 : (⟨S64x64, .i32⟩ : BufTy).Contents (Elt F) → (⟨S64x64x1, .i32⟩ : BufTy).Contents (Elt F)),
    StableHlo.unary main_v25 main_v28 (broadcastInDim S64x64x1 ![0, 1] bcast_S64x64_S64x64x1_0_1 : (⟨S64x64, .i32⟩ : BufTy).Contents (Elt F) → (⟨S64x64x1, .i32⟩ : BufTy).Contents (Elt F)),
    StableHlo.binary main_v27 main_v28 main_v29 ((fun a b => concatenate S64x64x2 2 [⟨S64x64x1, a⟩, ⟨S64x64x1, b⟩] concatenates_S64x64x1_S64x64x1_S64x64x2_d2) : (⟨S64x64x1, .i32⟩ : BufTy).Contents (Elt F) → (⟨S64x64x1, .i32⟩ : BufTy).Contents (Elt F) → (⟨S64x64x2, .i32⟩ : BufTy).Contents (Elt F)),
    StableHlo.binary main_v7 main_v29 main_v30 ((fun x i => Host.gather gather_S4x64x64x64x64_S64x64x2_S4x64x64x64x64_034_12_n_n_12_2_4116464 x i) : (⟨S4x64x64x64x64, .f32⟩ : BufTy).Contents (Elt F) → (⟨S64x64x2, .i32⟩ : BufTy).Contents (Elt F) → (⟨S4x64x64x64x64, .f32⟩ : BufTy).Contents (Elt F)),
    StableHlo.unary main_v30 main_v31 ((transpose S4x64x64x64x64 [0, 1, 3, 4, 2] · transposes_S4x64x64x64x64_S4x64x64x64x64_0_1_3_4_2) : (⟨S4x64x64x64x64, .f32⟩ : BufTy).Contents (Elt F) → (⟨S4x64x64x64x64, .f32⟩ : BufTy).Contents (Elt F)),
    StableHlo.reshape main_v31 main_v32 rfl shapeCasts_S4x64x64x64x64_S4x64x64x64x8x8,
    StableHlo.unary main_v32 main_v33 ((transpose S4x64x8x64x8x64 [0, 1, 4, 2, 5, 3] · transposes_S4x64x64x64x8x8_S4x64x8x64x8x64_0_1_4_2_5_3) : (⟨S4x64x64x64x8x8, .f32⟩ : BufTy).Contents (Elt F) → (⟨S4x64x8x64x8x64, .f32⟩ : BufTy).Contents (Elt F)),
    StableHlo.reshape main_v33 main_v34 rfl shapeCasts_S4x64x8x64x8x64_S4x64x512x512 ]

-- sixty binds re-associated: the rewrite under the chain recurses once per statement
set_option maxRecDepth 2048 in
/-- @main is that straight line: the callee's definitions unfolded at their calls, both sides are one chain of
    operation steps once sequencing is re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub ..,
    unary_bufs_sub .., binary_bufs_sub .., nullary_bufs_sub .., unary_bufs_sub .., unary_bufs_sub .., unary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    binary_bufs_sub .., binary_bufs_sub .., unary_bufs_sub .., reshape_bufs_sub .., unary_bufs_sub .., reshape_bufs_sub ..⟩

/-- Every TensorCore buffer ends at the fold of the operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, stretch by stretch

The list is cut where a later operation reads only a few of the earlier results: the patches plus positions
(`opsA`), the table of sums `c + q` and the divisor's constant (`opsB`), the floored remainder (`opsC`), the
table of index pairs (`opsD`), the gather and the way back to an image (`opsE`). Each stretch is read from any
contents: what its results are in terms of the buffers it reads, and which buffers read later it leaves alone. -/

/-- The image by patches, the positions broadcast, their sum. -/
abbrev opsA : List (HloOp τ sig (Elt F)) :=
  [ StableHlo.reshape main_arg0 main_v0 rfl shapeCasts_S4x64x512x512_S4x64x8x64x8x64,
    StableHlo.unary main_v0 main_v1 ((transpose S4x64x64x64x8x8 [0, 1, 3, 5, 2, 4] · transposes_S4x64x8x64x8x64_S4x64x64x64x8x8_0_1_3_5_2_4) : (⟨S4x64x8x64x8x64, .f32⟩ : BufTy).Contents (Elt F) → (⟨S4x64x64x64x8x8, .f32⟩ : BufTy).Contents (Elt F)),
    StableHlo.reshape main_v1 main_v2 rfl shapeCasts_S4x64x64x64x8x8_S4x64x64x64x64,
    StableHlo.unary main_v2 main_v3 ((transpose S4x64x64x64x64 [0, 1, 4, 2, 3] · transposes_S4x64x64x64x64_S4x64x64x64x64_0_1_4_2_3) : (⟨S4x64x64x64x64, .f32⟩ : BufTy).Contents (Elt F) → (⟨S4x64x64x64x64, .f32⟩ : BufTy).Contents (Elt F)),
    StableHlo.reshape main_arg1 main_v4 rfl shapeCasts_S1x1x64x64x1x1_S64x64x1x1,
    StableHlo.unary main_v4 main_v5 (broadcastInDim S1x64x64x1x1 ![1, 2, 3, 4] bcast_S64x64x1x1_S1x64x64x1x1_1_2_3_4 : (⟨S64x64x1x1, .f32⟩ : BufTy).Contents (Elt F) → (⟨S1x64x64x1x1, .f32⟩ : BufTy).Contents (Elt F)),
    StableHlo.unary main_v5 main_v6 (broadcastInDim S4x64x64x64x64 ![0, 1, 2, 3, 4] bcast_S1x64x64x1x1_S4x64x64x64x64_0_1_2_3_4 : (⟨S1x64x64x1x1, .f32⟩ : BufTy).Contents (Elt F) → (⟨S4x64x64x64x64, .f32⟩ : BufTy).Contents (Elt F)),
    StableHlo.binary main_v3 main_v6 main_v7 (addf : (⟨S4x64x64x64x64, .f32⟩ : BufTy).Contents (Elt F) → (⟨S4x64x64x64x64, .f32⟩ : BufTy).Contents (Elt F) → (⟨S4x64x64x64x64, .f32⟩ : BufTy).Contents (Elt F)) ]

/-- The numbers 0 … 63, the sums `c + q`, the constant 64. -/
abbrev opsB : List (HloOp τ sig (Elt F)) :=
  [ StableHlo.nullary main_v8 (iotaInDim S64 32 0),
    StableHlo.unary main_v8 main_v9 (broadcastInDim S64x1 ![0] bcast_S64_S64x1_0 : (⟨S64, .i32⟩ : BufTy).Contents (Elt F) → (⟨S64x1, .i32⟩ : BufTy).Contents (Elt F)),
    StableHlo.unary main_v8 main_v10 (broadcastInDim S1x64 ![1] bcast_S64_S1x64_1 : (⟨S64, .i32⟩ : BufTy).Contents (Elt F) → (⟨S1x64, .i32⟩ : BufTy).Contents (Elt F)),
    StableHlo.unary main_v9 main_v11 (broadcastInDim S64x64 ![0, 1] bcast_S64x1_S64x64_0_1 : (⟨S64x1, .i32⟩ : BufTy).Contents (Elt F) → (⟨S64x64, .i32⟩ : BufTy).Contents (Elt F)),
    StableHlo.unary main_v10 main_v12 (broadcastInDim S64x64 ![0, 1] bcast_S1x64_S64x64_0_1 : (⟨S1x64, .i32⟩ : BufTy).Contents (Elt F) → (⟨S64x64, .i32⟩ : BufTy).Contents (Elt F)),
    StableHlo.binary main_v11 main_v12 main_v13 (addi : (⟨S64x64, .i32⟩ : BufTy).Contents (Elt F) → (⟨S64x64, .i32⟩ : BufTy).Contents (Elt F) → (⟨S64x64, .i32⟩ : BufTy).Contents (Elt F)),
    StableHlo.nullary main_c (constantI S_ 32 64#32) ]

/-- The callee: the floored remainder of the sums by the constant. -/
abbrev opsC : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S64x64, .i32⟩) (broadcastInDim S64x64 ![] bcast_S_S64x64),
    StableHlo.TRef.binary (.of main_v13 : StableHlo.TRef sig ⟨S64x64, .i32⟩) (.of main_call0_v3 : StableHlo.TRef sig ⟨S64x64, .i32⟩) (.of main_call0_v4 : StableHlo.TRef sig ⟨S64x64, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S64x64, .i32⟩) (broadcastInDim S64x64 ![] bcast_S_S64x64),
    StableHlo.TRef.binary (.of main_call0_v4 : StableHlo.TRef sig ⟨S64x64, .i32⟩) (.of main_call0_v5 : StableHlo.TRef sig ⟨S64x64, .i32⟩) (.of main_call0_v6 : StableHlo.TRef sig ⟨S64x64, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S64x64, .i32⟩) (broadcastInDim S64x64 ![] bcast_S_S64x64),
    StableHlo.TRef.binary (.of main_call0_v4 : StableHlo.TRef sig ⟨S64x64, .i32⟩) (.of main_call0_v7 : StableHlo.TRef sig ⟨S64x64, .i32⟩) (.of main_call0_v8 : StableHlo.TRef sig ⟨S64x64, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S64x64, .i1⟩) (broadcastInDim S64x64 ![] bcast_S_S64x64),
    StableHlo.TRef.binary (.of main_call0_v8 : StableHlo.TRef sig ⟨S64x64, .i1⟩) (.of main_call0_v10 : StableHlo.TRef sig ⟨S64x64, .i1⟩) (.of main_call0_v11 : StableHlo.TRef sig ⟨S64x64, .i1⟩) (cmpi .ne),
    StableHlo.TRef.binary (.of main_call0_v11 : StableHlo.TRef sig ⟨S64x64, .i1⟩) (.of main_call0_v6 : StableHlo.TRef sig ⟨S64x64, .i1⟩) (.of main_call0_v12 : StableHlo.TRef sig ⟨S64x64, .i1⟩) andi,
    StableHlo.TRef.unary (.of main_call0_v2 : StableHlo.TRef sig ⟨S_, .i32⟩) (.of main_call0_v13 : StableHlo.TRef sig ⟨S64x64, .i32⟩) (broadcastInDim S64x64 ![] bcast_S_S64x64),
    StableHlo.TRef.binary (.of main_call0_v4 : StableHlo.TRef sig ⟨S64x64, .i32⟩) (.of main_call0_v13 : StableHlo.TRef sig ⟨S64x64, .i32⟩) (.of main_call0_v14 : StableHlo.TRef sig ⟨S64x64, .i32⟩) addi,
    StableHlo.TRef.ternary (.of main_call0_v12 : StableHlo.TRef sig ⟨S64x64, .i1⟩) (.of main_call0_v14 : StableHlo.TRef sig ⟨S64x64, .i32⟩) (.of main_call0_v4 : StableHlo.TRef sig ⟨S64x64, .i32⟩) (.of main_v14 : StableHlo.TRef sig ⟨S64x64, .i32⟩) select ]

/-- The channel column and the source patches, normalized, and their pairs. -/
abbrev opsD : List (HloOp τ sig (Elt F)) :=
  [ StableHlo.unary main_v8 main_v15 (broadcastInDim S64x1 ![0] bcast_S64_S64x1_0 : (⟨S64, .i32⟩ : BufTy).Contents (Elt F) → (⟨S64x1, .i32⟩ : BufTy).Contents (Elt F)),
    StableHlo.nullary main_c_0 (constantI S_ 32 0#32),
    StableHlo.unary main_c_0 main_v16 (broadcastInDim S64x1 ![] bcast_S_S64x1 : (⟨S_, .i32⟩ : BufTy).Contents (Elt F) → (⟨S64x1, .i32⟩ : BufTy).Contents (Elt F)),
    StableHlo.binary main_v15 main_v16 main_v17 (cmpi .slt : (⟨S64x1, .i32⟩ : BufTy).Contents (Elt F) → (⟨S64x1, .i32⟩ : BufTy).Contents (Elt F) → (⟨S64x1, .i1⟩ : BufTy).Contents (Elt F)),
    StableHlo.nullary main_c_1 (constantI S_ 32 64#32),
    StableHlo.unary main_c_1 main_v18 (broadcastInDim S64x1 ![] bcast_S_S64x1 : (⟨S_, .i32⟩ : BufTy).Contents (Elt F) → (⟨S64x1, .i32⟩ : BufTy).Contents (Elt F)),
    StableHlo.binary main_v15 main_v18 main_v19 (addi : (⟨S64x1, .i32⟩ : BufTy).Contents (Elt F) → (⟨S64x1, .i32⟩ : BufTy).Contents (Elt F) → (⟨S64x1, .i32⟩ : BufTy).Contents (Elt F)),
    StableHlo.ternary main_v17 main_v19 main_v15 main_v20 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_2 (constantI S_ 32 0#32),
    StableHlo.unary main_c_2 main_v21 (broadcastInDim S64x64 ![] bcast_S_S64x64 : (⟨S_, .i32⟩ : BufTy).Contents (Elt F) → (⟨S64x64, .i32⟩ : BufTy).Contents (Elt F)),
    StableHlo.binary main_v14 main_v21 main_v22 (cmpi .slt : (⟨S64x64, .i32⟩ : BufTy).Contents (Elt F) → (⟨S64x64, .i32⟩ : BufTy).Contents (Elt F) → (⟨S64x64, .i1⟩ : BufTy).Contents (Elt F)),
    StableHlo.nullary main_c_3 (constantI S_ 32 64#32),
    StableHlo.unary main_c_3 main_v23 (broadcastInDim S64x64 ![] bcast_S_S64x64 : (⟨S_, .i32⟩ : BufTy).Contents (Elt F) → (⟨S64x64, .i32⟩ : BufTy).Contents (Elt F)),
    StableHlo.binary main_v14 main_v23 main_v24 (addi : (⟨S64x64, .i32⟩ : BufTy).Contents (Elt F) → (⟨S64x64, .i32⟩ : BufTy).Contents (Elt F) → (⟨S64x64, .i32⟩ : BufTy).Contents (Elt F)),
    StableHlo.ternary main_v22 main_v24 main_v14 main_v25 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v20 main_v26 (broadcastInDim S64x64 ![0, 1] bcast_S64x1_S64x64_0_1 : (⟨S64x1, .i32⟩ : BufTy).Contents (Elt F) → (⟨S64x64, .i32⟩ : BufTy).Contents (Elt F)),
    StableHlo.unary main_v26 main_v27 (broadcastInDim S64x64x1 ![0, 1] bcast_S64x64_S64x64x1_0_1 : (⟨S64x64, .i32⟩ : BufTy).Contents (Elt F) → (⟨S64x64x1, .i32⟩ : BufTy).Contents (Elt F)),
    StableHlo.unary main_v25 main_v28 (broadcastInDim S64x64x1 ![0, 1] bcast_S64x64_S64x64x1_0_1 : (⟨S64x64, .i32⟩ : BufTy).Contents (Elt F) → (⟨S64x64x1, .i32⟩ : BufTy).Contents (Elt F)),
    StableHlo.binary main_v27 main_v28 main_v29 ((fun a b => concatenate S64x64x2 2 [⟨S64x64x1, a⟩, ⟨S64x64x1, b⟩] concatenates_S64x64x1_S64x64x1_S64x64x2_d2) : (⟨S64x64x1, .i32⟩ : BufTy).Contents (Elt F) → (⟨S64x64x1, .i32⟩ : BufTy).Contents (Elt F) → (⟨S64x64x2, .i32⟩ : BufTy).Contents (Elt F)) ]

/-- The gather and the patches laid back as an image. -/
abbrev opsE : List (HloOp τ sig (Elt F)) :=
  [ StableHlo.binary main_v7 main_v29 main_v30 ((fun x i => Host.gather gather_S4x64x64x64x64_S64x64x2_S4x64x64x64x64_034_12_n_n_12_2_4116464 x i) : (⟨S4x64x64x64x64, .f32⟩ : BufTy).Contents (Elt F) → (⟨S64x64x2, .i32⟩ : BufTy).Contents (Elt F) → (⟨S4x64x64x64x64, .f32⟩ : BufTy).Contents (Elt F)),
    StableHlo.unary main_v30 main_v31 ((transpose S4x64x64x64x64 [0, 1, 3, 4, 2] · transposes_S4x64x64x64x64_S4x64x64x64x64_0_1_3_4_2) : (⟨S4x64x64x64x64, .f32⟩ : BufTy).Contents (Elt F) → (⟨S4x64x64x64x64, .f32⟩ : BufTy).Contents (Elt F)),
    StableHlo.reshape main_v31 main_v32 rfl shapeCasts_S4x64x64x64x64_S4x64x64x64x8x8,
    StableHlo.unary main_v32 main_v33 ((transpose S4x64x8x64x8x64 [0, 1, 4, 2, 5, 3] · transposes_S4x64x64x64x8x8_S4x64x8x64x8x64_0_1_4_2_5_3) : (⟨S4x64x64x64x8x8, .f32⟩ : BufTy).Contents (Elt F) → (⟨S4x64x8x64x8x64, .f32⟩ : BufTy).Contents (Elt F)),
    StableHlo.reshape main_v33 main_v34 rfl shapeCasts_S4x64x8x64x8x64_S4x64x512x512 ]

theorem ops_split : (ops : List (HloOp τ sig (Elt F))) = opsA ++ (opsB ++ (opsC ++ (opsD ++ opsE))) := rfl

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After the first stretch the sum's buffer holds the patches plus the positions. -/
theorem stretchA (V : Valuation τ sig (Elt F)) :
    after opsA V (main_v7 : DevRef τ sig) = addf (patches (V (main_arg0 : DevRef τ sig))) (posAll (V (main_arg1 : DevRef τ sig))) := by
  after_results
  rfl

/-- After the second: the sums, the constant 64 and the numbers 0 … 63; the first stretch's sum is left alone. -/
theorem stretchB (V : Valuation τ sig (Elt F)) :
    after opsB V (main_v13 : DevRef τ sig) = sumCQ
      ∧ after opsB V (main_c : DevRef τ sig) = constantI S_ 32 64#32
      ∧ after opsB V (main_v8 : DevRef τ sig) = iota64
      ∧ after opsB V (main_v7 : DevRef τ sig) = V (main_v7 : DevRef τ sig) := by
  refine ⟨?_, ?_, ?_, ?_⟩
  · after_results
    rfl
  · after_results
  · after_results
    rfl
  · after_results

-- twenty-one results rewritten one at a time, the remainder's read four times
set_option maxHeartbeats 1000000 in
/-- The callee, from contents with the sums and the constant in place: its result is the floored remainder. -/
theorem stretchC (V : Valuation τ sig (Elt F)) (h13 : V (main_v13 : DevRef τ sig) = sumCQ)
    (hc : V (main_c : DevRef τ sig) = constantI S_ 32 64#32) :
    after opsC V (main_v14 : DevRef τ sig) = remCQ
      ∧ after opsC V (main_v8 : DevRef τ sig) = V (main_v8 : DevRef τ sig)
      ∧ after opsC V (main_v7 : DevRef τ sig) = V (main_v7 : DevRef τ sig) := by
  refine ⟨?_, ?_, ?_⟩
  · after_results
    rw [h13, hc]
    rfl
  · after_results
  · after_results

-- nineteen results rewritten one at a time
set_option maxHeartbeats 1000000 in
/-- From contents with the numbers and the remainder in place: the table of index pairs. -/
theorem stretchD (V : Valuation τ sig (Elt F)) (h8 : V (main_v8 : DevRef τ sig) = iota64)
    (h14 : V (main_v14 : DevRef τ sig) = remCQ) :
    after opsD V (main_v29 : DevRef τ sig) = pairTable
      ∧ after opsD V (main_v7 : DevRef τ sig) = V (main_v7 : DevRef τ sig) := by
  refine ⟨?_, ?_⟩
  · after_results
    rw [h8, h14]
    rfl
  · after_results

/-- From contents with the summed patches and the pair table in place: the result is the reference's term. -/
theorem stretchE (V : Valuation τ sig (Elt F)) (x : Vec F S4x64x512x512 .f32) (p : Vec F S1x1x64x64x1x1 .f32)
    (h7 : V (main_v7 : DevRef τ sig) = addf (patches x) (posAll p)) (h29 : V (main_v29 : DevRef τ sig) = pairTable) :
    after opsE V (main_v34 : DevRef τ sig) = refTerm x p := by
  after_results
  rw [h7, h29]
  rfl

/-- The fold at the result buffer is the reference's term of the two arguments' contents: stretch by stretch, each
    read at the contents the stretches before it leave. -/
theorem out_eq (V : Valuation τ sig (Elt F)) :
    after ops V (main_v34 : DevRef τ sig) = refTerm (V (main_arg0 : DevRef τ sig)) (V (main_arg1 : DevRef τ sig)) := by
  rw [ops_split, after_append, after_append, after_append, after_append]
  have hA := stretchA V
  obtain ⟨hB13, hBc, hB8, hB7⟩ := stretchB (after opsA V)
  obtain ⟨hC14, hC8, hC7⟩ := stretchC (after opsB (after opsA V)) hB13 hBc
  obtain ⟨hD29, hD7⟩ := stretchD (after opsC (after opsB (after opsA V))) (hC8.trans hB8) hC14
  exact stretchE _ _ _ (hD7.trans (hC7.trans (hB7.trans hA))) hD29

/-- No operation writes an argument. -/
theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (out_eq _),
      (h c main_arg0).trans (arg0_eq _),
      (h c main_arg1).trans (arg1_eq _)⟩)
    (run_fold m ρ)

end Cert.ReferenceIdeal.RefRun

end
-- ==== Proof.RefValue.lean ====
/-
  The reference's term, read index by index at the extended reals, is the specification `G`.
-/
import proofs.«426089_j48120813584595_3_alg».proof.Proof.RefTerm
import proofs.«426089_j48120813584595_3_alg».proof.Proof.Spec
import Idealize.ShloMosaic.Lib.Pipeline.Value
import Idealize.ShloMosaic.Lib.ValueIdx
import Idealize.ShloMosaic.Lib.ValueIdxRank6
import Idealize.ShloMosaic.Lib.IdealHost
import Idealize.ShloMosaic.Lib.StableHlo.Predicate
import Idealize.ShloMosaic.Lib.Affine

noncomputable section

namespace Cert.ReferenceIdeal.RefValue

open Cert.ReferenceIdeal Cert.ReferenceIdeal.Gen Idealize.ShloMosaic Idealize.ShloMosaic.TcCoe Idealize.ShloMosaic.ValueIdx

/-! ## Coordinate bounds -/

theorem row_lt (m i : Fin 64) : 64 * (m.val / 8) + i.val < 512 := by
  have := m.isLt; have := i.isLt; omega
theorem col_lt (m j : Fin 64) : 64 * (m.val % 8) + j.val < 512 := by
  have := m.isLt; have := j.isLt; omega
theorem div8_lt (m : Fin 64) : m.val / 8 < 8 := by have := m.isLt; omega
theorem mod8_lt (m : Fin 64) : m.val % 8 < 8 := Nat.mod_lt _ (by decide)

/-! ## The image by patches, and the positional table over a patch, at an index -/

/-- Patch `m`'s element (i, j) of channel `c` is the image's at row `64 (m / 8) + i`, column `64 (m mod 8) + j`. -/
theorem patches_apply (x : Vec Ideal S4x64x512x512 .f32) (b : Fin 4) (c m i j : Fin 64) :
    patches (F := Ideal) x (ix5 b c m i j)
      = x (ix4 b c ⟨64 * (m.val / 8) + i.val, row_lt m i⟩ ⟨64 * (m.val % 8) + j.val, col_lt m j⟩) := by
  have hm := m.isLt; have hi := i.isLt; have hj := j.isLt
  unfold patches
  -- the outer transpose [0,1,4,2,3]: (b, c, m, i, j) reads (b, c, i, j, m)
  refine (transpose_apply _ _ _ (ix5 b c m i j) (ix5 b c i j m)
    (fun a => match a with | ⟨0, _⟩ => rfl | ⟨1, _⟩ => rfl | ⟨2, _⟩ => rfl | ⟨3, _⟩ => rfl | ⟨4, _⟩ => rfl)).trans ?_
  -- the patch number splits into row band and column band
  refine (shapeCast_apply _ _ (ix5 b c i j m) (ix6 b c i j ⟨m.val / 8, div8_lt m⟩ ⟨m.val % 8, mod8_lt m⟩)
    (by rw [Shape.rowMajor_val_five, Shape.rowMajor_val_six]
        show (((((b.val * 64 + c.val) * 64 + i.val) * 64 + j.val) * 8 + m.val / 8) * 8 + m.val % 8
          = (((b.val * 64 + c.val) * 64 + i.val) * 64 + j.val) * 64 + m.val)
        omega)).trans ?_
  -- the inner transpose [0,1,3,5,2,4]: (b, c, i, j, u, v) reads (b, c, u, i, v, j)
  refine (transpose_apply _ _ _ (ix6 b c i j ⟨m.val / 8, div8_lt m⟩ ⟨m.val % 8, mod8_lt m⟩)
    (ix6 b c ⟨m.val / 8, div8_lt m⟩ i ⟨m.val % 8, mod8_lt m⟩ j)
    (fun a => match a with | ⟨0, _⟩ => rfl | ⟨1, _⟩ => rfl | ⟨2, _⟩ => rfl | ⟨3, _⟩ => rfl | ⟨4, _⟩ => rfl | ⟨5, _⟩ => rfl)).trans ?_
  -- row band and row in the band make the row, column band and column in the band the column
  exact shapeCast_apply _ _ (ix6 b c ⟨m.val / 8, div8_lt m⟩ i ⟨m.val % 8, mod8_lt m⟩ j)
    (ix4 b c ⟨64 * (m.val / 8) + i.val, row_lt m i⟩ ⟨64 * (m.val % 8) + j.val, col_lt m j⟩)
    (by rw [Shape.rowMajor_val_four, Shape.rowMajor_val_six]
        show ((b.val * 64 + c.val) * 512 + (64 * (m.val / 8) + i.val)) * 512 + (64 * (m.val % 8) + j.val)
          = ((((b.val * 64 + c.val) * 8 + m.val / 8) * 64 + i.val) * 8 + m.val % 8) * 64 + j.val
        omega)

/-- The positional table over batch and patch elements reads `pos[c, m]`. -/
theorem posAll_apply (p : Vec Ideal S1x1x64x64x1x1 .f32) (b : Fin 4) (c m i j : Fin 64) :
    posAll (F := Ideal) p (ix5 b c m i j) = p (ix6 (0 : Fin 1) (0 : Fin 1) c m (0 : Fin 1) (0 : Fin 1)) := by
  unfold posAll
  refine (broadcastInDim_apply _ _ _ (ix5 b c m i j) (ix5 (0 : Fin 1) c m (0 : Fin 1) (0 : Fin 1))
    (fun a => match a with | ⟨0, _⟩ => rfl | ⟨1, _⟩ => rfl | ⟨2, _⟩ => rfl | ⟨3, _⟩ => rfl | ⟨4, _⟩ => rfl)).trans ?_
  refine (broadcastInDim_apply _ _ _ (ix5 (0 : Fin 1) c m (0 : Fin 1) (0 : Fin 1)) (ix4 c m (0 : Fin 1) (0 : Fin 1))
    (fun a => match a with | ⟨0, _⟩ => rfl | ⟨1, _⟩ => rfl | ⟨2, _⟩ => rfl | ⟨3, _⟩ => rfl)).trans ?_
  exact shapeCast_apply _ _ (ix4 c m (0 : Fin 1) (0 : Fin 1)) (ix6 (0 : Fin 1) (0 : Fin 1) c m (0 : Fin 1) (0 : Fin 1))
    (by rw [Shape.rowMajor_val_four, Shape.rowMajor_val_six]
        show ((((0 * 1 + 0) * 64 + c.val) * 64 + m.val) * 1 + 0) * 1 + 0 = ((c.val * 64 + m.val) * 1 + 0) * 1 + 0
        omega)

/-! ## Integer operations at an index, and small words -/

section Words
variable {s : Shape} {w : Nat}
theorem addi_at (x y : IVec s w) (i : s.Idx) : addi x y i = IntOp.addi (x i) (y i) := rfl
theorem andi_at (x y : IVec s w) (i : s.Idx) : andi x y i = IntOp.andi (x i) (y i) := rfl
theorem cmpi_at (p : CmpIPredicate) (x y : IVec s w) (i : s.Idx) : cmpi p x y i = IntOp.cmpi p (x i) (y i) := rfl
theorem hostRemsi_at (x y : IVec s w) (i : s.Idx) : Host.remsi x y i = IntOp.remsi .host (x i) (y i) := rfl
theorem constantI_at (b : BitVec w) (i : s.Idx) : constantI s w b i = b := rfl
end Words

/-- A word below 2³¹ is not negative. -/
theorem slt_zero_of_small (n : Nat) (h : n < 2 ^ 31) : IntOp.cmpi .slt (BitVec.ofNat 32 n) 0#32 = 0#1 := by
  apply eq_zero_of_ne_one
  intro h1
  have hn : (BitVec.ofNat 32 n).toNat = n := by rw [BitVec.toNat_ofNat]; omega
  have h2 := (StableHlo.Predicate.slt_iff_toNat (a := BitVec.ofNat 32 n) (b := 0#32) (by omega) (by decide)).1 h1
  have h0 : (0#32 : BitVec 32).toNat = 0 := rfl
  rw [h0] at h2
  exact Nat.not_lt_zero _ h2

theorem andi_zero_left (x : BitVec 1) : IntOp.andi 0#1 x = 0#1 := by revert x; decide

/-! ## The table of index pairs at an entry -/

/-- A column over the rows of a square reads the column's entry of the row. -/
theorem bcast_col (v : IVec S64x1 32) (c q : Fin 64) :
    broadcastInDim S64x64 ![0, 1] bcast_S64x1_S64x64_0_1 v (ix2 c q) = v (ix2 c (0 : Fin 1)) :=
  broadcastInDim_apply _ _ _ (ix2 c q) (ix2 c (0 : Fin 1)) (fun a => match a with | ⟨0, _⟩ => rfl | ⟨1, _⟩ => rfl)

/-- A row over the columns of a square reads the row's entry of the column. -/
theorem bcast_row (v : IVec S1x64 32) (c q : Fin 64) :
    broadcastInDim S64x64 ![0, 1] bcast_S1x64_S64x64_0_1 v (ix2 c q) = v (ix2 (0 : Fin 1) q) :=
  broadcastInDim_apply _ _ _ (ix2 c q) (ix2 (0 : Fin 1) q) (fun a => match a with | ⟨0, _⟩ => rfl | ⟨1, _⟩ => rfl)

/-- A square with a unit axis behind reads the square. -/
theorem bcast_unit (v : IVec S64x64 32) (c q : Fin 64) :
    broadcastInDim S64x64x1 ![0, 1] bcast_S64x64_S64x64x1_0_1 v (ix3 c q (0 : Fin 1)) = v (ix2 c q) :=
  broadcastInDim_apply _ _ _ (ix3 c q (0 : Fin 1)) (ix2 c q) (fun a => match a with | ⟨0, _⟩ => rfl | ⟨1, _⟩ => rfl)

theorem iotaCol_apply (c : Fin 64) :
    broadcastInDim S64x1 ![0] bcast_S64_S64x1_0 iota64 (ix2 c (0 : Fin 1)) = BitVec.ofNat 32 c.val :=
  (broadcastInDim_apply _ _ _ (ix2 c (0 : Fin 1)) (ix1 c) (fun a => match a with | ⟨0, _⟩ => rfl)).trans rfl

theorem iotaRow_apply (q : Fin 64) :
    broadcastInDim S1x64 ![1] bcast_S64_S1x64_1 iota64 (ix2 (0 : Fin 1) q) = BitVec.ofNat 32 q.val :=
  (broadcastInDim_apply _ _ _ (ix2 (0 : Fin 1) q) (ix1 q) (fun a => match a with | ⟨0, _⟩ => rfl)).trans rfl

/-- Entry (c, q) of the sum table is the word `c + q`. -/
theorem sumCQ_apply (c q : Fin 64) : sumCQ (ix2 c q) = BitVec.ofNat 32 c.val + BitVec.ofNat 32 q.val := by
  unfold sumCQ
  rw [addi_at, bcast_col, bcast_row, iotaCol_apply, iotaRow_apply]
  rfl

/-- The divisor is 64. -/
theorem divisor_eq : divisor ix0 = 64#32 := by decide

/-- The truncated remainder of `c + q` by 64 is the word `(c + q) mod 64`: nothing is negative. -/
theorem truncRem_apply (c q : Fin 64) : truncRem (ix2 c q) = BitVec.ofNat 32 ((c.val + q.val) % 64) := by
  have hc := c.isLt; have hq := q.isLt
  unfold truncRem
  rw [hostRemsi_at, broadcastInDim_scalar_apply, divisor_eq, sumCQ_apply]
  have hx : (BitVec.ofNat 32 c.val + BitVec.ofNat 32 q.val).toNat = c.val + q.val := by
    rw [BitVec.toNat_add, BitVec.toNat_ofNat, BitVec.toNat_ofNat]; omega
  apply BitVec.eq_of_toNat_eq
  rw [show (64#32 : BitVec 32) = BitVec.ofNat 32 64 from rfl,
    IntOp.toNat_remsi .host (by rw [hx]; omega) 64 (by omega) (by omega), hx, BitVec.toNat_ofNat]
  omega

/-- A scalar over a square reads the scalar. -/
theorem bcastS_sq {α : Type} (v : S_.Idx → α) (c q : Fin 64) :
    broadcastInDim S64x64 ![] bcast_S_S64x64 v (ix2 c q) = v ix0 := broadcastInDim_scalar_apply _ _ _

/-- A scalar over a column reads the scalar. -/
theorem bcastS_col {α : Type} (v : S_.Idx → α) (c : Fin 64) :
    broadcastInDim S64x1 ![] bcast_S_S64x1 v (ix2 c (0 : Fin 1)) = v ix0 := broadcastInDim_scalar_apply _ _ _

/-- The floored remainder is the truncated one: the sign fix-up never fires. -/
theorem remCQ_apply (c q : Fin 64) : remCQ (ix2 c q) = BitVec.ofNat 32 ((c.val + q.val) % 64) := by
  have hr : (c.val + q.val) % 64 < 2 ^ 31 := by omega
  unfold remCQ
  simp only [select_apply, andi_at, cmpi_at, addi_at, truncRem_apply]
  repeat rw [bcastS_sq]
  simp only [cmpi_at, constantI_at, divisor_eq]
  rw [slt_zero_of_small _ hr, show IntOp.cmpi .slt (64#32) (0#32) = 0#1 from by decide,
    show IntOp.cmpi .ne (0#1) (0#1) = 0#1 from by decide, andi_zero_left, select_zero]

/-- The source patch number at (c, q) is the word `(c + q) mod 64`: the wrap of a negative index never fires. -/
theorem patchCQ_apply (c q : Fin 64) : patchCQ (ix2 c q) = BitVec.ofNat 32 ((c.val + q.val) % 64) := by
  have hr : (c.val + q.val) % 64 < 2 ^ 31 := by omega
  unfold patchCQ
  simp only [select_apply, cmpi_at, addi_at, remCQ_apply]
  repeat rw [bcastS_sq]
  simp only [constantI_at]
  rw [slt_zero_of_small _ hr, select_zero]

/-- The channel column at `c` is the word `c`: the wrap of a negative index never fires. -/
theorem chanCol_apply (c : Fin 64) : chanCol (ix2 c (0 : Fin 1)) = BitVec.ofNat 32 c.val := by
  have hc : c.val < 2 ^ 31 := by have := c.isLt; omega
  unfold chanCol
  simp only [select_apply, cmpi_at, addi_at]
  repeat rw [bcastS_col]
  rw [iotaCol_apply]
  simp only [constantI_at]
  rw [slt_zero_of_small _ hc, select_zero]

/-- The first word of the pair at (c, q) is the channel `c`. -/
theorem pairTable_chan (c q : Fin 64) : pairTable (ix3 c q (0 : Fin 2)) = BitVec.ofNat 32 c.val := by
  unfold pairTable
  refine (concatenate_pair_apply_left (s₁ := S64x64x1) (s₂ := S64x64x1) _ _ _ _ (ix3 c q (0 : Fin 2)) rfl (ix3 c q (0 : Fin 1))
    (fun b => match b with | ⟨0, _⟩ => rfl | ⟨1, _⟩ => rfl | ⟨2, _⟩ => rfl)).trans ?_
  rw [bcast_unit, bcast_col, chanCol_apply]

/-- The second word of the pair at (c, q) is the source patch `(c + q) mod 64`. -/
theorem pairTable_patch (c q : Fin 64) : pairTable (ix3 c q (1 : Fin 2)) = BitVec.ofNat 32 ((c.val + q.val) % 64) := by
  unfold pairTable
  refine (concatenate_pair_apply_right (s₁ := S64x64x1) (s₂ := S64x64x1) _ _ _ _ (ix3 c q (1 : Fin 2)) rfl rfl (ix3 c q (0 : Fin 1))
    (fun b => match b with | ⟨0, _⟩ => fun _ => rfl | ⟨1, _⟩ => fun _ => rfl | ⟨2, _⟩ => fun h => absurd rfl h) rfl).trans ?_
  rw [bcast_unit, patchCQ_apply]

/-! ## The gather at an index -/

/-- The gather's dimension numbers. -/
abbrev gd : GatherDims S4x64x64x64x64 S64x64x2 S4x64x64x64x64 :=
  gather_S4x64x64x64x64_S64x64x2_S4x64x64x64x64_034_12_n_n_12_2_4116464

/-- The start-indices index component `k` of result index (b, c, q, i, j) reads: the pair at (c, q), its word `k`. -/
theorem gd_siIdx (b : Fin 4) (c q i j : Fin 64) (k : Fin gd.startIndexMap.length) :
    gd.siIdx (ix5 b c q i j) k = ix3 c q (⟨k.val, k.isLt⟩ : Fin 2) := by
  funext e
  apply Fin.ext
  match e with
  | ⟨0, _⟩ => rfl
  | ⟨1, _⟩ => rfl
  | ⟨2, _⟩ => rfl

/-- The gather at (b, c, q, i, j) reads the operand at (b, c', m', i, j), (c', m') the pair the table holds at (c, q):
    the two start words are in range, so the clamp leaves them; batch has no start word and keeps its coordinate, as do
    the two coordinates inside the patch. -/
theorem gather_apply {α : Type} (y : S4x64x64x64x64.Idx → α) (tbl : IVec S64x64x2 32) (b : Fin 4) (c q i j c' m' : Fin 64)
    (h0 : tbl (ix3 c q (0 : Fin 2)) = BitVec.ofNat 32 c'.val) (h1 : tbl (ix3 c q (1 : Fin 2)) = BitVec.ofNat 32 m'.val) :
    Host.gather gd y tbl (ix5 b c q i j) = y (ix5 b c' m' i j) := by
  have hc' := c'.isLt; have hm' := m'.isLt
  unfold Host.gather
  congr 1
  funext a
  apply Fin.ext
  show gd.start (ix5 b c q i j) tbl a + gd.batchCoord (ix5 b c q i j) a + gd.offCoord (ix5 b c q i j) a = (ix5 b c' m' i j a).val
  rw [GatherDims.batchCoord_eq_zero _ _ _ List.not_mem_nil, Nat.add_zero]
  match a with
  | ⟨0, _⟩ =>
    have es : gd.start (ix5 b c q i j) tbl ⟨0, by decide⟩ = 0 := by
      unfold GatherDims.start; exact dif_neg (by decide)
    have eo : gd.offCoord (ix5 b c q i j) ⟨0, by decide⟩ = b.val := by
      unfold GatherDims.offCoord; exact (dif_pos (by decide)).trans rfl
    rw [es, eo, Nat.zero_add]
  | ⟨1, _⟩ =>
    have es : gd.start (ix5 b c q i j) tbl ⟨1, by decide⟩ = c'.val := by
      unfold GatherDims.start
      refine (dif_pos (by decide)).trans ?_
      rw [gd_siIdx]
      show min (tbl (ix3 c q (0 : Fin 2))).toInt.toNat (64 - 1) = c'.val
      rw [h0, StableHlo.Predicate.toInt_ofNat_small _ (by omega)]
      omega
    have eo : gd.offCoord (ix5 b c q i j) ⟨1, by decide⟩ = 0 := by
      unfold GatherDims.offCoord; exact dif_neg (by decide)
    rw [es, eo, Nat.add_zero]
  | ⟨2, _⟩ =>
    have es : gd.start (ix5 b c q i j) tbl ⟨2, by decide⟩ = m'.val := by
      unfold GatherDims.start
      refine (dif_pos (by decide)).trans ?_
      rw [gd_siIdx]
      show min (tbl (ix3 c q (1 : Fin 2))).toInt.toNat (64 - 1) = m'.val
      rw [h1, StableHlo.Predicate.toInt_ofNat_small _ (by omega)]
      omega
    have eo : gd.offCoord (ix5 b c q i j) ⟨2, by decide⟩ = 0 := by
      unfold GatherDims.offCoord; exact dif_neg (by decide)
    rw [es, eo, Nat.add_zero]
  | ⟨3, _⟩ =>
    have es : gd.start (ix5 b c q i j) tbl ⟨3, by decide⟩ = 0 := by
      unfold GatherDims.start; exact dif_neg (by decide)
    have eo : gd.offCoord (ix5 b c q i j) ⟨3, by decide⟩ = i.val := by
      unfold GatherDims.offCoord; exact (dif_pos (by decide)).trans rfl
    rw [es, eo, Nat.zero_add]
  | ⟨4, _⟩ =>
    have es : gd.start (ix5 b c q i j) tbl ⟨4, by decide⟩ = 0 := by
      unfold GatherDims.start; exact dif_neg (by decide)
    have eo : gd.offCoord (ix5 b c q i j) ⟨4, by decide⟩ = j.val := by
      unfold GatherDims.offCoord; exact (dif_pos (by decide)).trans rfl
    rw [es, eo, Nat.zero_add]

/-! ## The term at an output index -/

theorem q_lt (r w : Fin 512) : 8 * (r.val / 64) + w.val / 64 < 64 := by have := r.isLt; have := w.isLt; omega
theorem div64_lt (r : Fin 512) : r.val / 64 < 8 := by have := r.isLt; omega
theorem mod64_lt (r : Fin 512) : r.val % 64 < 64 := Nat.mod_lt _ (by decide)

/-- The output element at (b, c, r, w) is the gathered array's at output patch `8 (r / 64) + w / 64`, element
    (r mod 64, w mod 64). -/
theorem refTerm_apply (x : Vec Ideal S4x64x512x512 .f32) (p : Vec Ideal S1x1x64x64x1x1 .f32) (b : Fin 4) (c : Fin 64) (r w : Fin 512) :
    refTerm (F := Ideal) x p (ix4 b c r w)
      = Host.gather gd (addf (patches x) (posAll p)) pairTable
          (ix5 b c ⟨8 * (r.val / 64) + w.val / 64, q_lt r w⟩ ⟨r.val % 64, mod64_lt r⟩ ⟨w.val % 64, mod64_lt w⟩) := by
  have hr := r.isLt; have hw := w.isLt
  unfold refTerm
  -- the outer reshape: row and column split into band and position in the band
  refine (shapeCast_apply _ _ (ix4 b c r w)
    (ix6 b c ⟨r.val / 64, div64_lt r⟩ ⟨r.val % 64, mod64_lt r⟩ ⟨w.val / 64, div64_lt w⟩ ⟨w.val % 64, mod64_lt w⟩)
    (by rw [Shape.rowMajor_val_six, Shape.rowMajor_val_four]
        show ((((b.val * 64 + c.val) * 8 + r.val / 64) * 64 + r.val % 64) * 8 + w.val / 64) * 64 + w.val % 64
          = ((b.val * 64 + c.val) * 512 + r.val) * 512 + w.val
        omega)).trans ?_
  -- the transpose [0,1,4,2,5,3]: (b, c, u, i, v, j) reads (b, c, i, j, u, v)
  refine (transpose_apply _ _ _
    (ix6 b c ⟨r.val / 64, div64_lt r⟩ ⟨r.val % 64, mod64_lt r⟩ ⟨w.val / 64, div64_lt w⟩ ⟨w.val % 64, mod64_lt w⟩)
    (ix6 b c ⟨r.val % 64, mod64_lt r⟩ ⟨w.val % 64, mod64_lt w⟩ ⟨r.val / 64, div64_lt r⟩ ⟨w.val / 64, div64_lt w⟩)
    (fun a => match a with | ⟨0, _⟩ => rfl | ⟨1, _⟩ => rfl | ⟨2, _⟩ => rfl | ⟨3, _⟩ => rfl | ⟨4, _⟩ => rfl | ⟨5, _⟩ => rfl)).trans ?_
  -- the inner reshape: the two bands make the output patch number
  refine (shapeCast_apply _ _
    (ix6 b c ⟨r.val % 64, mod64_lt r⟩ ⟨w.val % 64, mod64_lt w⟩ ⟨r.val / 64, div64_lt r⟩ ⟨w.val / 64, div64_lt w⟩)
    (ix5 b c ⟨r.val % 64, mod64_lt r⟩ ⟨w.val % 64, mod64_lt w⟩ ⟨8 * (r.val / 64) + w.val / 64, q_lt r w⟩)
    (by rw [Shape.rowMajor_val_five, Shape.rowMajor_val_six]
        show (((b.val * 64 + c.val) * 64 + r.val % 64) * 64 + w.val % 64) * 64 + (8 * (r.val / 64) + w.val / 64)
          = ((((b.val * 64 + c.val) * 64 + r.val % 64) * 64 + w.val % 64) * 8 + r.val / 64) * 8 + w.val / 64
        omega)).trans ?_
  -- the transpose [0,1,3,4,2]: (b, c, i, j, q) reads (b, c, q, i, j)
  exact transpose_apply _ _ _
    (ix5 b c ⟨r.val % 64, mod64_lt r⟩ ⟨w.val % 64, mod64_lt w⟩ ⟨8 * (r.val / 64) + w.val / 64, q_lt r w⟩)
    (ix5 b c ⟨8 * (r.val / 64) + w.val / 64, q_lt r w⟩ ⟨r.val % 64, mod64_lt r⟩ ⟨w.val % 64, mod64_lt w⟩)
    (fun a => match a with | ⟨0, _⟩ => rfl | ⟨1, _⟩ => rfl | ⟨2, _⟩ => rfl | ⟨3, _⟩ => rfl | ⟨4, _⟩ => rfl)

theorem refTerm_eq (x : Vec Ideal S4x64x512x512 .f32) (p : Vec Ideal S1x1x64x64x1x1 .f32) :
    refTerm (F := Ideal) x p = Cert.CrossPatch.G x p := by
  funext i
  obtain ⟨b, c, r, w, rfl⟩ : ∃ (b : Fin 4) (c : Fin 64) (r w : Fin 512), i = ix4 b c r w :=
    ⟨i 0, i 1, i 2, i 3, eq_ix4 i⟩
  have hc := c.isLt; have hr := r.isLt; have hw := w.isLt
  rw [refTerm_apply,
    gather_apply _ pairTable b c ⟨8 * (r.val / 64) + w.val / 64, q_lt r w⟩ ⟨r.val % 64, mod64_lt r⟩ ⟨w.val % 64, mod64_lt w⟩ c
      ⟨(c.val + (8 * (r.val / 64) + w.val / 64)) % 64, Nat.mod_lt _ (by decide)⟩
      (pairTable_chan c _) (pairTable_patch c _),
    addf_apply, patches_apply, posAll_apply]
  unfold Cert.CrossPatch.G
  congr 1
  · exact congrArg x (Cert.CrossPatch.eq_srcIdx (ix4 b c r w) _ rfl rfl
      (by show 64 * ((c.val + (8 * (r.val / 64) + w.val / 64)) % 64 / 8) + r.val % 64 = Cert.CrossPatch.srcRow c.val r.val w.val
          unfold Cert.CrossPatch.srcRow Cert.CrossPatch.patch; omega)
      (by show 64 * ((c.val + (8 * (r.val / 64) + w.val / 64)) % 64 % 8) + w.val % 64 = Cert.CrossPatch.srcCol c.val r.val w.val
          unfold Cert.CrossPatch.srcCol Cert.CrossPatch.patch; omega))
  · exact congrArg p (Cert.CrossPatch.eq_posIdx _ c ⟨Cert.CrossPatch.patch c.val r.val w.val, Cert.CrossPatch.patch_lt _ _ _⟩ rfl
      (by show (c.val + (8 * (r.val / 64) + w.val / 64)) % 64 = Cert.CrossPatch.patch c.val r.val w.val
          unfold Cert.CrossPatch.patch; omega))

end Cert.ReferenceIdeal.RefValue

end
-- ==== Proof.lean ====
/-
  The certificate's claims.

  Both programs compute, for every batch `b`, channel `c`, row `64 u' + i` and column `64 v' + j`,
      out[b, c, 64 u' + i, 64 v' + j] = x[b, c, 64 (m / 8) + i, 64 (m mod 8) + j] + pos[c, m],   m = (c + 8 u' + v') mod 64:
  each channel's 64 patches are rotated by the channel's number and the positional value of the source patch is
  added (`Cert.CrossPatch.G`, Proof/Spec.lean). The reference does it with reshapes, transposes and one gather through a
  table of index pairs (Proof/RefTerm.lean, read index by index in Proof/RefValue.lean; its run in Proof/RefRun.lean); the
  kernel by loading, per channel and output row band, the two source row bands at a row offset computed from the channel
  group, joining their column ranges, and adding a positional row prepared by the host (Proof/KernelBody.lean,
  Proof/KernelHost.lean, Proof/KernelValue.lean). The two values are the same sum `x + pos` of the same two entries, so
  no law of the extended reals is needed and the precondition is never opened. The frames are the generated ones; the
  idealization rewrote nothing, so `preserves` is trivial.
-/
import proofs.«426089_j48120813584595_3_alg».proof.Defs
import proofs.«426089_j48120813584595_3_alg».proof.Proof.Gen.Kernel
import proofs.«426089_j48120813584595_3_alg».proof.Proof.Gen.Kernel.Frame
import proofs.«426089_j48120813584595_3_alg».proof.Proof.Gen.KernelIdeal
import proofs.«426089_j48120813584595_3_alg».proof.Proof.Gen.KernelIdeal.Frame
import proofs.«426089_j48120813584595_3_alg».proof.Proof.Gen.ReferenceIdeal
import proofs.«426089_j48120813584595_3_alg».proof.Proof.Gen.Pre_finite_inputs
import proofs.«426089_j48120813584595_3_alg».proof.Proof.KernelValue
import proofs.«426089_j48120813584595_3_alg».proof.Proof.RefRun
import proofs.«426089_j48120813584595_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the result array at `G x pos`: the kernel's run
    (Proof/KernelValue.lean) and the reference's run with its term read index by index (Proof/RefValue.lean). -/
theorem algebraic : Cert.algebraic_KernelIdeal_ReferenceIdeal := by
  intro m ρ m' ρ' _ hagree
  refine ⟨fun c => Cert.CrossPatch.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
